-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x896 : Shape := ⟨2, ![32768, 896]⟩
abbrev S2688x896 : Shape := ⟨2, ![2688, 896]⟩
abbrev S2688 : Shape := ⟨1, ![2688]⟩
abbrev S896x896 : Shape := ⟨2, ![896, 896]⟩
abbrev S896 : Shape := ⟨1, ![896]⟩
abbrev S896x1792 : Shape := ⟨2, ![896, 1792]⟩
abbrev S_ : Shape := ⟨0, ![]⟩

class Facts : Prop where
  bcast_S_S32768x896 : S_.BroadcastsInDim S32768x896 (![] : Fin 0 → Fin S32768x896.rank)
  reducesTo_S32768x896_S_d0_1 : S32768x896.ReducesTo [0, 1] S_
  h_S_ : 0 < S_.numel
  bcast_S_S2688x896 : S_.BroadcastsInDim S2688x896 (![] : Fin 0 → Fin S2688x896.rank)
  reducesTo_S2688x896_S_d0_1 : S2688x896.ReducesTo [0, 1] S_
  bcast_S_S2688 : S_.BroadcastsInDim S2688 (![] : Fin 0 → Fin S2688.rank)
  reducesTo_S2688_S_d0 : S2688.ReducesTo [0] S_
  bcast_S_S896x896 : S_.BroadcastsInDim S896x896 (![] : Fin 0 → Fin S896x896.rank)
  reducesTo_S896x896_S_d0_1 : S896x896.ReducesTo [0, 1] S_
  bcast_S_S896 : S_.BroadcastsInDim S896 (![] : Fin 0 → Fin S896.rank)
  reducesTo_S896_S_d0 : S896.ReducesTo [0] S_
  bcast_S_S896x1792 : S_.BroadcastsInDim S896x1792 (![] : Fin 0 → Fin S896x1792.rank)
  reducesTo_S896x1792_S_d0_1 : S896x1792.ReducesTo [0, 1] S_

variable [Facts]

def fn_part3 {F : FTy → Type} [FloatOps F] (main_arg11 : FVec F S896 .f32) (main_v48 : IVec S_ 1) (main_v49 : FVec F S896 .f32) (main_v50 : FVec F S896 .f32) : IVec S_ 1 :=
  let main_v51 : IVec S896 1 := cmpf .olt main_v49 main_v50
  let main_c_19 : IVec S_ 1 := constantI S_ 1 1#1
  let main_v52 : IVec S_ 1 := (fun x v => Host.reduce IntOp.andi x v reducesTo_S896_S_d0 h_S_) main_v51 main_c_19
  let main_v53 : IVec S_ 1 := andi main_v48 main_v52
  let main_v54 : FVec F S896 .f32 := Host.absf main_arg11
  let main_cst_20 : FVec F S_ .f32 := constant S_ .f32 0x7F800000#32
  let main_v55 : FVec F S896 .f32 := broadcastInDim S896 ![] bcast_S_S896 main_cst_20
  let main_v56 : IVec S896 1 := cmpf .olt main_v54 main_v55
  let main_c_21 : IVec S_ 1 := constantI S_ 1 1#1
  let main_v57 : IVec S_ 1 := (fun x v => Host.reduce IntOp.andi x v reducesTo_S896_S_d0 h_S_) main_v56 main_c_21
  let main_v58 : IVec S_ 1 := andi main_v53 main_v57
  main_v58

def fn_part2 {F : FTy → Type} [FloatOps F] (main_arg7 : FVec F S896 .f32) (main_arg8 : FVec F S896x896 .f32) (main_arg9 : FVec F S896 .f32) (main_arg10 : FVec F S896 .f32) (main_arg11 : FVec F S896 .f32) (main_v33 : IVec S_ 1) : IVec S_ 1 :=
  let main_v34 : FVec F S896 .f32 := Host.absf main_arg7
  let main_cst_12 : FVec F S_ .f32 := constant S_ .f32 0x7F800000#32
  let main_v35 : FVec F S896 .f32 := broadcastInDim S896 ![] bcast_S_S896 main_cst_12
  let main_v36 : IVec S896 1 := cmpf .olt main_v34 main_v35
  let main_c_13 : IVec S_ 1 := constantI S_ 1 1#1
  let main_v37 : IVec S_ 1 := (fun x v => Host.reduce IntOp.andi x v reducesTo_S896_S_d0 h_S_) main_v36 main_c_13
  let main_v38 : IVec S_ 1 := andi main_v33 main_v37
  let main_v39 : FVec F S896x896 .f32 := Host.absf main_arg8
  let main_cst_14 : FVec F S_ .f32 := constant S_ .f32 0x7F800000#32
  let main_v40 : FVec F S896x896 .f32 := broadcastInDim S896x896 ![] bcast_S_S896x896 main_cst_14
  let main_v41 : IVec S896x896 1 := cmpf .olt main_v39 main_v40
  let main_c_15 : IVec S_ 1 := constantI S_ 1 1#1
  let main_v42 : IVec S_ 1 := (fun x v => Host.reduce IntOp.andi x v reducesTo_S896x896_S_d0_1 h_S_) main_v41 main_c_15
  let main_v43 : IVec S_ 1 := andi main_v38 main_v42
  let main_v44 : FVec F S896 .f32 := Host.absf main_arg9
  let main_cst_16 : FVec F S_ .f32 := constant S_ .f32 0x7F800000#32
  let main_v45 : FVec F S896 .f32 := broadcastInDim S896 ![] bcast_S_S896 main_cst_16
  let main_v46 : IVec S896 1 := cmpf .olt main_v44 main_v45
  let main_c_17 : IVec S_ 1 := constantI S_ 1 1#1
  let main_v47 : IVec S_ 1 := (fun x v => Host.reduce IntOp.andi x v reducesTo_S896_S_d0 h_S_) main_v46 main_c_17
  let main_v48 : IVec S_ 1 := andi main_v43 main_v47
  let main_v49 : FVec F S896 .f32 := Host.absf main_arg10
  let main_cst_18 : FVec F S_ .f32 := constant S_ .f32 0x7F800000#32
  let main_v50 : FVec F S896 .f32 := broadcastInDim S896 ![] bcast_S_S896 main_cst_18
  fn_part3 (F := F) main_arg11 main_v48 main_v49 main_v50

def fn_part1 {F : FTy → Type} [FloatOps F] (main_arg4 : FVec F S896x896 .f32) (main_arg5 : FVec F S896 .f32) (main_arg6 : FVec F S896x1792 .f32) (main_arg7 : FVec F S896 .f32) (main_arg8 : FVec F S896x896 .f32) (main_arg9 : FVec F S896 .f32) (main_arg10 : FVec F S896 .f32) (main_arg11 : FVec F S896 .f32) (main_v13 : IVec S_ 1) (main_v16 : IVec S2688 1) : IVec S_ 1 :=
  let main_c_5 : IVec S_ 1 := constantI S_ 1 1#1
  let main_v17 : IVec S_ 1 := (fun x v => Host.reduce IntOp.andi x v reducesTo_S2688_S_d0 h_S_) main_v16 main_c_5
  let main_v18 : IVec S_ 1 := andi main_v13 main_v17
  let main_v19 : FVec F S896x896 .f32 := Host.absf main_arg4
  let main_cst_6 : FVec F S_ .f32 := constant S_ .f32 0x7F800000#32
  let main_v20 : FVec F S896x896 .f32 := broadcastInDim S896x896 ![] bcast_S_S896x896 main_cst_6
  let main_v21 : IVec S896x896 1 := cmpf .olt main_v19 main_v20
  let main_c_7 : IVec S_ 1 := constantI S_ 1 1#1
  let main_v22 : IVec S_ 1 := (fun x v => Host.reduce IntOp.andi x v reducesTo_S896x896_S_d0_1 h_S_) main_v21 main_c_7
  let main_v23 : IVec S_ 1 := andi main_v18 main_v22
  let main_v24 : FVec F S896 .f32 := Host.absf main_arg5
  let main_cst_8 : FVec F S_ .f32 := constant S_ .f32 0x7F800000#32
  let main_v25 : FVec F S896 .f32 := broadcastInDim S896 ![] bcast_S_S896 main_cst_8
  let main_v26 : IVec S896 1 := cmpf .olt main_v24 main_v25
  let main_c_9 : IVec S_ 1 := constantI S_ 1 1#1
  let main_v27 : IVec S_ 1 := (fun x v => Host.reduce IntOp.andi x v reducesTo_S896_S_d0 h_S_) main_v26 main_c_9
  let main_v28 : IVec S_ 1 := andi main_v23 main_v27
  let main_v29 : FVec F S896x1792 .f32 := Host.absf main_arg6
  let main_cst_10 : FVec F S_ .f32 := constant S_ .f32 0x7F800000#32
  let main_v30 : FVec F S896x1792 .f32 := broadcastInDim S896x1792 ![] bcast_S_S896x1792 main_cst_10
  let main_v31 : IVec S896x1792 1 := cmpf .olt main_v29 main_v30
  let main_c_11 : IVec S_ 1 := constantI S_ 1 1#1
  let main_v32 : IVec S_ 1 := (fun x v => Host.reduce IntOp.andi x v reducesTo_S896x1792_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x896 .f32) (main_arg1 : FVec F S32768x896 .f32) (main_arg2 : FVec F S2688x896 .f32) (main_arg3 : FVec F S2688 .f32) (main_arg4 : FVec F S896x896 .f32) (main_arg5 : FVec F S896 .f32) (main_arg6 : FVec F S896x1792 .f32) (main_arg7 : FVec F S896 .f32) (main_arg8 : FVec F S896x896 .f32) (main_arg9 : FVec F S896 .f32) (main_arg10 : FVec F S896 .f32) (main_arg11 : FVec F S896 .f32) : IVec S_ 1 :=
  let main_v0 : FVec F S32768x896 .f32 := Host.absf main_arg0
  let main_cst : FVec F S_ .f32 := constant S_ .f32 0x7F800000#32
  let main_v1 : FVec F S32768x896 .f32 := broadcastInDim S32768x896 ![] bcast_S_S32768x896 main_cst
  let main_v2 : IVec S32768x896 1 := cmpf .olt main_v0 main_v1
  let main_c : IVec S_ 1 := constantI S_ 1 1#1
  let main_v3 : IVec S_ 1 := (fun x v => Host.reduce IntOp.andi x v reducesTo_S32768x896_S_d0_1 h_S_) main_v2 main_c
  let main_v4 : FVec F S32768x896 .f32 := Host.absf main_arg1
  let main_cst_0 : FVec F S_ .f32 := constant S_ .f32 0x7F800000#32
  let main_v5 : FVec F S32768x896 .f32 := broadcastInDim S32768x896 ![] bcast_S_S32768x896 main_cst_0
  let main_v6 : IVec S32768x896 1 := cmpf .olt main_v4 main_v5
  let main_c_1 : IVec S_ 1 := constantI S_ 1 1#1
  let main_v7 : IVec S_ 1 := (fun x v => Host.reduce IntOp.andi x v reducesTo_S32768x896_S_d0_1 h_S_) main_v6 main_c_1
  let main_v8 : IVec S_ 1 := andi main_v3 main_v7
  let main_v9 : FVec F S2688x896 .f32 := Host.absf main_arg2
  let main_cst_2 : FVec F S_ .f32 := constant S_ .f32 0x7F800000#32
  let main_v10 : FVec F S2688x896 .f32 := broadcastInDim S2688x896 ![] bcast_S_S2688x896 main_cst_2
  let main_v11 : IVec S2688x896 1 := cmpf .olt main_v9 main_v10
  let main_c_3 : IVec S_ 1 := constantI S_ 1 1#1
  let main_v12 : IVec S_ 1 := (fun x v => Host.reduce IntOp.andi x v reducesTo_S2688x896_S_d0_1 h_S_) main_v11 main_c_3
  let main_v13 : IVec S_ 1 := andi main_v8 main_v12
  let main_v14 : FVec F S2688 .f32 := Host.absf main_arg3
  let main_cst_4 : FVec F S_ .f32 := constant S_ .f32 0x7F800000#32
  let main_v15 : FVec F S2688 .f32 := broadcastInDim S2688 ![] bcast_S_S2688 main_cst_4
  let main_v16 : IVec S2688 1 := cmpf .olt main_v14 main_v15
  fn_part1 (F := F) main_arg4 main_arg5 main_arg6 main_arg7 main_arg8 main_arg9 main_arg10 main_arg11 main_v13 main_v16
-- ==== Kernel.lean ====
abbrev S32768x896 : Shape := ⟨2, ![32768, 896]⟩
abbrev S2688x896 : Shape := ⟨2, ![2688, 896]⟩
abbrev S2688 : Shape := ⟨1, ![2688]⟩
abbrev S896x896 : Shape := ⟨2, ![896, 896]⟩
abbrev S896 : Shape := ⟨1, ![896]⟩
abbrev S896x1792 : Shape := ⟨2, ![896, 1792]⟩
abbrev S1x896 : Shape := ⟨2, ![1, 896]⟩
abbrev S1792x896 : Shape := ⟨2, ![1792, 896]⟩
abbrev S512x896 : Shape := ⟨2, ![512, 896]⟩
abbrev S512x1792 : Shape := ⟨2, ![512, 1792]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S32768x896, .f32⟩
  | .hbm, ⟨1, _⟩ => ⟨S32768x896, .f32⟩
  | .hbm, ⟨2, _⟩ => ⟨S2688x896, .f32⟩
  | .hbm, ⟨3, _⟩ => ⟨S2688, .f32⟩
  | .hbm, ⟨4, _⟩ => ⟨S896x896, .f32⟩
  | .hbm, ⟨5, _⟩ => ⟨S896, .f32⟩
  | .hbm, ⟨6, _⟩ => ⟨S896x1792, .f32⟩
  | .hbm, ⟨7, _⟩ => ⟨S896, .f32⟩
  | .hbm, ⟨8, _⟩ => ⟨S896x896, .f32⟩
  | .hbm, ⟨9, _⟩ => ⟨S896, .f32⟩
  | .hbm, ⟨10, _⟩ => ⟨S896, .f32⟩
  | .hbm, ⟨11, _⟩ => ⟨S896, .f32⟩
  | .hbm, ⟨12, _⟩ => ⟨S896x896, .f32⟩
  | .hbm, ⟨13, _⟩ => ⟨S896x896, .f32⟩
  | .hbm, ⟨14, _⟩ => ⟨S896x896, .bf16⟩
  | .hbm, ⟨15, _⟩ => ⟨S896, .f32⟩
  | .hbm, ⟨16, _⟩ => ⟨S1x896, .f32⟩
  | .hbm, ⟨17, _⟩ => ⟨S896x896, .f32⟩
  | .hbm, ⟨18, _⟩ => ⟨S896x896, .bf16⟩
  | .hbm, ⟨19, _⟩ => ⟨S1x896, .f32⟩
  | .hbm, ⟨20, _⟩ => ⟨S1792x896, .f32⟩
  | .hbm, ⟨21, _⟩ => ⟨S1792x896, .bf16⟩
  | .hbm, ⟨22, _⟩ => ⟨S1x896, .f32⟩
  | .hbm, ⟨23, _⟩ => ⟨S896x896, .f32⟩
  | .hbm, ⟨24, _⟩ => ⟨S896x896, .bf16⟩
  | .hbm, ⟨25, _⟩ => ⟨S1x896, .f32⟩
  | .hbm, ⟨26, _⟩ => ⟨S1x896, .f32⟩
  | .hbm, ⟨27, _⟩ => ⟨S1x896, .f32⟩
  | .hbm, ⟨28, _⟩ => ⟨S32768x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S896x896, .bf16⟩
  | .local _ .vmem, ⟨5, _⟩ => ⟨S1x896, .f32⟩
  | .local _ .vmem, ⟨6, _⟩ => ⟨S896x896, .bf16⟩
  | .local _ .vmem, ⟨7, _⟩ => ⟨S1x896, .f32⟩
  | .local _ .vmem, ⟨8, _⟩ => ⟨S1792x896, .bf16⟩
  | .local _ .vmem, ⟨9, _⟩ => ⟨S1x896, .f32⟩
  | .local _ .vmem, ⟨10, _⟩ => ⟨S896x896, .bf16⟩
  | .local _ .vmem, ⟨11, _⟩ => ⟨S1x896, .f32⟩
  | .local _ .vmem, ⟨12, _⟩ => ⟨S1x896, .f32⟩
  | .local _ .vmem, ⟨13, _⟩ => ⟨S1x896, .f32⟩
  | .local _ .vmem, ⟨14, _⟩ => ⟨S512x896, .f32⟩
  | .local _ .vmem, ⟨15, _⟩ => ⟨S512x896, .f32⟩
  | _, _ => ⟨S32768x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S896x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1792x896 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S896x896 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x896 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2688x896_S896x896_1792_0 : S2688x896.Slices ![1792, 0] S896x896
  transposes_S896x896_S896x896_1_0 : S896x896.Transposes [1, 0] S896x896
  bitsLt_bf16_f32 : FTy.bits .bf16 < FTy.bits .f32
  slices_S2688_S896_1792 : S2688.Slices ![1792] S896
  shapeCasts_S896_S1x896 : S896.ShapeCasts S1x896
  transposes_S896x1792_S1792x896_1_0 : S896x1792.Transposes [1, 0] S1792x896
  inb_S512x896_S512x896_0_0 : ∀ a, (![0, 0] : Fin 2 → Nat) a + S512x896.size a ≤ S512x896.size a
  h_S512x896 : 0 < S512x896.numel
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S512x896 : S1x896.Broadcasts S512x896
  concatenates_S512x896_S512x896_S512x1792_d1 : Shape.Concatenates [S512x896, S512x896] S512x1792 1
  inb_S1792x896_S1792x896_0_0 : ∀ a, (![0, 0] : Fin 2 → Nat) a + S1792x896.size a ≤ S1792x896.size a
  h_S1792x896 : 0 < S1792x896.numel
  shapeCasts_S1792x896_S1792x896 : S1792x896.ShapeCasts S1792x896
  reduces_S512x896_S512 : S512x896.Reduces [1] S512
  shapeCasts_S512_S512x1 : S512.ShapeCasts S512x1
  broadcasts_S512x1_S512x896 : S512x1.Broadcasts S512x896
  dot_S512x896_S896x896_S512x896_1_0_0_1_n_n_wf : DotDims.WF S512x896 S896x896 S512x896 [1] [0] [0] [1] [] []
  dot_S512x1792_S1792x896_S512x896_1_0_0_1_n_n_wf : DotDims.WF S512x1792 S1792x896 S512x896 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x896.size a ≤ S32768x896.size a
  hwx0_0 : ∀ i : grid0.Coords, EltTy.bits .f32 = 32 ∨ (Rect.block (s := S32768x896) S512x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x896.size a ≤ S32768x896.size a
  hwx0_1 : ∀ i : grid0.Coords, EltTy.bits .f32 = 32 ∨ (Rect.block (s := S32768x896) S512x896.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S896x896.size a ≤ S896x896.size a
  hwx0_2 : ∀ i : grid0.Coords, EltTy.bits .bf16 = 32 ∨ (Rect.block (s := S896x896) S896x896.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x896.size a ≤ S1x896.size a
  hwx0_3 : ∀ i : grid0.Coords, EltTy.bits .f32 = 32 ∨ (Rect.block (s := S1x896) S1x896.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S896x896.size a ≤ S896x896.size a
  hwx0_4 : ∀ i : grid0.Coords, EltTy.bits .bf16 = 32 ∨ (Rect.block (s := S896x896) S896x896.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x896.size a ≤ S1x896.size a
  hwx0_5 : ∀ i : grid0.Coords, EltTy.bits .f32 = 32 ∨ (Rect.block (s := S1x896) S1x896.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1792x896.size a ≤ S1792x896.size a
  hwx0_6 : ∀ i : grid0.Coords, EltTy.bits .bf16 = 32 ∨ (Rect.block (s := S1792x896) S1792x896.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x896.size a ≤ S1x896.size a
  hwx0_7 : ∀ i : grid0.Coords, EltTy.bits .f32 = 32 ∨ (Rect.block (s := S1x896) S1x896.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S896x896.size a ≤ S896x896.size a
  hwx0_8 : ∀ i : grid0.Coords, EltTy.bits .bf16 = 32 ∨ (Rect.block (s := S896x896) S896x896.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x896.size a ≤ S1x896.size a
  hwx0_9 : ∀ i : grid0.Coords, EltTy.bits .f32 = 32 ∨ (Rect.block (s := S1x896) S1x896.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x896.size a ≤ S1x896.size a
  hwx0_10 : ∀ i : grid0.Coords, EltTy.bits .f32 = 32 ∨ (Rect.block (s := S1x896) S1x896.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x896.size a ≤ S1x896.size a
  hwx0_11 : ∀ i : grid0.Coords, EltTy.bits .f32 = 32 ∨ (Rect.block (s := S1x896) S1x896.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x896.size a ≤ S32768x896.size a
  hwx0_12 : ∀ i : grid0.Coords, EltTy.bits .f32 = 32 ∨ (Rect.block (s := S32768x896) S512x896.size (cc0_transform_12 i) (hinb0_12 i)).WholeWords (EltTy.packing .f32)

variable [Facts₀]

def dot_S512x896_S896x896_S512x896_1_0_0_1_n_n : DotDims S512x896 S896x896 S512x896 where
  lhsContracting := [1]
  rhsContracting := [0]
  lhsNonContracting := [0]
  rhsNonContracting := [1]
  lhsBatch := []
  rhsBatch := []
  wf := dot_S512x896_S896x896_S512x896_1_0_0_1_n_n_wf
def dot_S512x1792_S1792x896_S512x896_1_0_0_1_n_n : DotDims S512x1792 S1792x896 S512x896 where
  lhsContracting := [1]
  rhsContracting := [0]
  lhsNonContracting := [0]
  rhsNonContracting := [1]
  lhsBatch := []
  rhsBatch := []
  wf := dot_S512x1792_S1792x896_S512x896_1_0_0_1_n_n_wf

abbrev win0_0 : Pipeline.Window sig grid0 :=
  Pipeline.Window.ofSpec (Memref.whole main_arg0) S512x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S896x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x896.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S896x896.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x896.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1792x896.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x896.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S896x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x896.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x896.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x896.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S512x896.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x896 : Shape := ⟨2, ![32768, 896]⟩
abbrev S2688x896 : Shape := ⟨2, ![2688, 896]⟩
abbrev S2688 : Shape := ⟨1, ![2688]⟩
abbrev S896x896 : Shape := ⟨2, ![896, 896]⟩
abbrev S896 : Shape := ⟨1, ![896]⟩
abbrev S896x1792 : Shape := ⟨2, ![896, 1792]⟩
abbrev S1x896 : Shape := ⟨2, ![1, 896]⟩
abbrev S32768x8x112 : Shape := ⟨3, ![32768, 8, 112]⟩
abbrev S_ : Shape := ⟨0, ![]⟩
abbrev S32768x8 : Shape := ⟨2, ![32768, 8]⟩
abbrev S32768x8x1 : Shape := ⟨3, ![32768, 8, 1]⟩
abbrev S32768x1792 : Shape := ⟨2, ![32768, 1792]⟩
abbrev S1792x896 : Shape := ⟨2, ![1792, 896]⟩
abbrev S32768 : Shape := ⟨1, ![32768]⟩
abbrev S32768x1 : Shape := ⟨2, ![32768, 1]⟩

abbrev nBuf : Space → Nat
  | .hbm => 114
  | .vmem => 0
  | .smem => 0
  | _ => 0

abbrev bufTy : (tb : Table) → Fin (tcTables nBuf tb) → BufTy
  | .hbm, ⟨0, _⟩ => ⟨S32768x896, .f32⟩
  | .hbm, ⟨1, _⟩ => ⟨S32768x896, .f32⟩
  | .hbm, ⟨2, _⟩ => ⟨S2688x896, .f32⟩
  | .hbm, ⟨3, _⟩ => ⟨S2688, .f32⟩
  | .hbm, ⟨4, _⟩ => ⟨S896x896, .f32⟩
  | .hbm, ⟨5, _⟩ => ⟨S896, .f32⟩
  | .hbm, ⟨6, _⟩ => ⟨S896x1792, .f32⟩
  | .hbm, ⟨7, _⟩ => ⟨S896, .f32⟩
  | .hbm, ⟨8, _⟩ => ⟨S896x896, .f32⟩
  | .hbm, ⟨9, _⟩ => ⟨S896, .f32⟩
  | .hbm, ⟨10, _⟩ => ⟨S896, .f32⟩
  | .hbm, ⟨11, _⟩ => ⟨S896, .f32⟩
  | .hbm, ⟨12, _⟩ => ⟨S896x896, .f32⟩
  | .hbm, ⟨13, _⟩ => ⟨S896x896, .f32⟩
  | .hbm, ⟨14, _⟩ => ⟨S32768x896, .f32⟩
  | .hbm, ⟨15, _⟩ => ⟨S896, .f32⟩
  | .hbm, ⟨16, _⟩ => ⟨S1x896, .f32⟩
  | .hbm, ⟨17, _⟩ => ⟨S32768x896, .f32⟩
  | .hbm, ⟨18, _⟩ => ⟨S32768x896, .f32⟩
  | .hbm, ⟨19, _⟩ => ⟨S896x896, .f32⟩
  | .hbm, ⟨20, _⟩ => ⟨S896x896, .f32⟩
  | .hbm, ⟨21, _⟩ => ⟨S32768x896, .f32⟩
  | .hbm, ⟨22, _⟩ => ⟨S896, .f32⟩
  | .hbm, ⟨23, _⟩ => ⟨S1x896, .f32⟩
  | .hbm, ⟨24, _⟩ => ⟨S32768x896, .f32⟩
  | .hbm, ⟨25, _⟩ => ⟨S32768x896, .f32⟩
  | .hbm, ⟨26, _⟩ => ⟨S896x896, .f32⟩
  | .hbm, ⟨27, _⟩ => ⟨S896x896, .f32⟩
  | .hbm, ⟨28, _⟩ => ⟨S32768x896, .f32⟩
  | .hbm, ⟨29, _⟩ => ⟨S896, .f32⟩
  | .hbm, ⟨30, _⟩ => ⟨S1x896, .f32⟩
  | .hbm, ⟨31, _⟩ => ⟨S32768x896, .f32⟩
  | .hbm, ⟨32, _⟩ => ⟨S32768x896, .f32⟩
  | .hbm, ⟨33, _⟩ => ⟨S32768x8x112, .f32⟩
  | .hbm, ⟨34, _⟩ => ⟨S32768x8x112, .f32⟩
  | .hbm, ⟨35, _⟩ => ⟨S32768x8x112, .f32⟩
  | .hbm, ⟨36, _⟩ => ⟨S32768x8x112, .f32⟩
  | .hbm, ⟨37, _⟩ => ⟨S_, .f32⟩
  | .hbm, ⟨38, _⟩ => ⟨S32768x8, .f32⟩
  | .hbm, ⟨39, _⟩ => ⟨S32768x8x1, .f32⟩
  | .hbm, ⟨40, _⟩ => ⟨S_, .f32⟩
  | .hbm, ⟨41, _⟩ => ⟨S_, .f32⟩
  | .hbm, ⟨42, _⟩ => ⟨S32768x8x1, .f32⟩
  | .hbm, ⟨43, _⟩ => ⟨S32768x8x1, .f32⟩
  | .hbm, ⟨44, _⟩ => ⟨S_, .f32⟩
  | .hbm, ⟨45, _⟩ => ⟨S32768x8, .f32⟩
  | .hbm, ⟨46, _⟩ => ⟨S_, .f32⟩
  | .hbm, ⟨47, _⟩ => ⟨S32768x8, .f32⟩
  | .hbm, ⟨48, _⟩ => ⟨S32768x8, .f32⟩
  | .hbm, ⟨49, _⟩ => ⟨S32768x8x1, .f32⟩
  | .hbm, ⟨50, _⟩ => ⟨S32768x8x1, .f32⟩
  | .hbm, ⟨51, _⟩ => ⟨S32768x8x1, .f32⟩
  | .hbm, ⟨52, _⟩ => ⟨S_, .f32⟩
  | .hbm, ⟨53, _⟩ => ⟨S32768x8, .f32⟩
  | .hbm, ⟨54, _⟩ => ⟨S32768x8x1, .f32⟩
  | .hbm, ⟨55, _⟩ => ⟨S32768x8x1, .f32⟩
  | .hbm, ⟨56, _⟩ => ⟨S32768x8x112, .f32⟩
  | .hbm, ⟨57, _⟩ => ⟨S32768x8x112, .f32⟩
  | .hbm, ⟨58, _⟩ => ⟨S32768x896, .f32⟩
  | .hbm, ⟨59, _⟩ => ⟨S896x896, .f32⟩
  | .hbm, ⟨60, _⟩ => ⟨S32768x896, .f32⟩
  | .hbm, ⟨61, _⟩ => ⟨S1x896, .f32⟩
  | .hbm, ⟨62, _⟩ => ⟨S32768x896, .f32⟩
  | .hbm, ⟨63, _⟩ => ⟨S32768x896, .f32⟩
  | .hbm, ⟨64, _⟩ => ⟨S32768x1792, .f32⟩
  | .hbm, ⟨65, _⟩ => ⟨S1792x896, .f32⟩
  | .hbm, ⟨66, _⟩ => ⟨S32768x896, .f32⟩
  | .hbm, ⟨67, _⟩ => ⟨S1x896, .f32⟩
  | .hbm, ⟨68, _⟩ => ⟨S32768x896, .f32⟩
  | .hbm, ⟨69, _⟩ => ⟨S32768x896, .f32⟩
  | .hbm, ⟨70, _⟩ => ⟨S32768x896, .f32⟩
  | .hbm, ⟨71, _⟩ => ⟨S32768x896, .f32⟩
  | .hbm, ⟨72, _⟩ => ⟨S_, .f32⟩
  | .hbm, ⟨73, _⟩ => ⟨S32768x896, .f32⟩
  | .hbm, ⟨74, _⟩ => ⟨S32768x896, .f32⟩
  | .hbm, ⟨75, _⟩ => ⟨S_, .f32⟩
  | .hbm, ⟨76, _⟩ => ⟨S32768x896, .f32⟩
  | .hbm, ⟨77, _⟩ => ⟨S32768x896, .f32⟩
  | .hbm, ⟨78, _⟩ => ⟨S32768x896, .f32⟩
  | .hbm, ⟨79, _⟩ => ⟨S896x896, .f32⟩
  | .hbm, ⟨80, _⟩ => ⟨S32768x896, .f32⟩
  | .hbm, ⟨81, _⟩ => ⟨S1x896, .f32⟩
  | .hbm, ⟨82, _⟩ => ⟨S32768x896, .f32⟩
  | .hbm, ⟨83, _⟩ => ⟨S32768x896, .f32⟩
  | .hbm, ⟨84, _⟩ => ⟨S_, .f32⟩
  | .hbm, ⟨85, _⟩ => ⟨S32768, .f32⟩
  | .hbm, ⟨86, _⟩ => ⟨S32768x1, .f32⟩
  | .hbm, ⟨87, _⟩ => ⟨S_, .f32⟩
  | .hbm, ⟨88, _⟩ => ⟨S32768x1, .f32⟩
  | .hbm, ⟨89, _⟩ => ⟨S32768x1, .f32⟩
  | .hbm, ⟨90, _⟩ => ⟨S32768x896, .f32⟩
  | .hbm, ⟨91, _⟩ => ⟨S32768x896, .f32⟩
  | .hbm, ⟨92, _⟩ => ⟨S32768x896, .f32⟩
  | .hbm, ⟨93, _⟩ => ⟨S_, .f32⟩
  | .hbm, ⟨94, _⟩ => ⟨S32768, .f32⟩
  | .hbm, ⟨95, _⟩ => ⟨S32768x1, .f32⟩
  | .hbm, ⟨96, _⟩ => ⟨S_, .f32⟩
  | .hbm, ⟨97, _⟩ => ⟨S32768x1, .f32⟩
  | .hbm, ⟨98, _⟩ => ⟨S32768x1, .f32⟩
  | .hbm, ⟨99, _⟩ => ⟨S32768x896, .f32⟩
  | .hbm, ⟨100, _⟩ => ⟨S32768x896, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x1, .f32⟩
  | .hbm, ⟨105, _⟩ => ⟨S32768x896, .f32⟩
  | .hbm, ⟨106, _⟩ => ⟨S32768x896, .f32⟩
  | .hbm, ⟨107, _⟩ => ⟨S1x896, .f32⟩
  | .hbm, ⟨108, _⟩ => ⟨S32768x896, .f32⟩
  | .hbm, ⟨109, _⟩ => ⟨S32768x896, .f32⟩
  | .hbm, ⟨110, _⟩ => ⟨S1x896, .f32⟩
  | .hbm, ⟨111, _⟩ => ⟨S32768x896, .f32⟩
  | .hbm, ⟨112, _⟩ => ⟨S32768x896, .f32⟩
  | .hbm, ⟨113, _⟩ => ⟨S32768x896, .f32⟩
  | _, _ => ⟨S32768x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_4 : Ref sig .tc := ⟨.hbm, 84, rfl⟩
abbrev main_v59 : Ref sig .tc := ⟨.hbm, 85, rfl⟩
abbrev main_v60 : Ref sig .tc := ⟨.hbm, 86, rfl⟩
abbrev main_cst_5 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_6 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_8 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2688x896_S896x896_0_0 : S2688x896.Slices ![0, 0] S896x896
  transposes_S896x896_S896x896_1_0 : S896x896.Transposes [1, 0] S896x896
  slices_S2688_S896_0 : S2688.Slices ![0] S896
  bcast_S896_S1x896_1 : S896.BroadcastsInDim S1x896 (![1] : Fin 1 → Fin S1x896.rank)
  bcast_S1x896_S32768x896_0_1 : S1x896.BroadcastsInDim S32768x896 (![0, 1] : Fin 2 → Fin S32768x896.rank)
  slices_S2688x896_S896x896_896_0 : S2688x896.Slices ![896, 0] S896x896
  slices_S2688_S896_896 : S2688.Slices ![896] S896
  slices_S2688x896_S896x896_1792_0 : S2688x896.Slices ![1792, 0] S896x896
  slices_S2688_S896_1792 : S2688.Slices ![1792] S896
  shapeCasts_S32768x896_S32768x8x112 : S32768x896.ShapeCasts S32768x8x112
  reducesTo_S32768x8x112_S32768x8_d2 : S32768x8x112.ReducesTo [2] S32768x8
  h_S_ : 0 < S_.numel
  bcast_S32768x8_S32768x8x1_0_1 : S32768x8.BroadcastsInDim S32768x8x1 (![0, 1] : Fin 2 → Fin S32768x8x1.rank)
  bcast_S_S32768x8x1 : S_.BroadcastsInDim S32768x8x1 (![] : Fin 0 → Fin S32768x8x1.rank)
  reducesTo_S32768x8x1_S32768x8_d2 : S32768x8x1.ReducesTo [2] S32768x8
  bcast_S_S32768x8 : S_.BroadcastsInDim S32768x8 (![] : Fin 0 → Fin S32768x8.rank)
  bcast_S32768x8x1_S32768x8x112_0_1_2 : S32768x8x1.BroadcastsInDim S32768x8x112 (![0, 1, 2] : Fin 3 → Fin S32768x8x112.rank)
  shapeCasts_S32768x8x112_S32768x896 : S32768x8x112.ShapeCasts S32768x896
  concatenates_S32768x896_S32768x896_S32768x1792_d1 : Shape.Concatenates [S32768x896, S32768x896] S32768x1792 1
  transposes_S896x1792_S1792x896_1_0 : S896x1792.Transposes [1, 0] S1792x896
  bcast_S_S32768x896 : S_.BroadcastsInDim S32768x896 (![] : Fin 0 → Fin S32768x896.rank)
  reducesTo_S32768x896_S32768_d1 : S32768x896.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x896_0_1 : S32768x1.BroadcastsInDim S32768x896 (![0, 1] : Fin 2 → Fin S32768x896.rank)
  dot_S32768x896_S896x896_S32768x896_1_0_0_1_n_n_wf : DotDims.WF S32768x896 S896x896 S32768x896 [1] [0] [0] [1] [] []
  dot_S32768x1792_S1792x896_S32768x896_1_0_0_1_n_n_wf : DotDims.WF S32768x1792 S1792x896 S32768x896 [1] [0] [0] [1] [] []

variable [Facts₀]

def dot_S32768x896_S896x896_S32768x896_1_0_0_1_n_n : DotDims S32768x896 S896x896 S32768x896 where
  lhsContracting := [1]
  rhsContracting := [0]
  lhsNonContracting := [0]
  rhsNonContracting := [1]
  lhsBatch := []
  rhsBatch := []
  wf := dot_S32768x896_S896x896_S32768x896_1_0_0_1_n_n_wf
def dot_S32768x1792_S1792x896_S32768x896_1_0_0_1_n_n : DotDims S32768x1792 S1792x896 S32768x896 where
  lhsContracting := [1]
  rhsContracting := [0]
  lhsNonContracting := [0]
  rhsNonContracting := [1]
  lhsBatch := []
  rhsBatch := []
  wf := dot_S32768x1792_S1792x896_S32768x896_1_0_0_1_n_n_wf

class Facts : Prop extends Facts₀ where

variable [Facts]
-- ==== Proof.RefRun.lean ====
/-
  The reference's run, read back in five stretches.

  The reference is a straight line of 102 operations, each writing a buffer of its own, so what a buffer holds at
  the end is the operation's function of what its operands held.  Composed over the whole line that is one very
  large term; here the line is cut at places where few values are still needed:

    after the three projections            (queries, keys and values: operations 1 to 21),
    after the attention's context          (operations 22 to 47),
    after the attention output             (operations 48 to 52; the cut falls just before the concatenation),
    after the gate's second layer          (operations 53 to 72; the SiLU's operations are among them),
    and the normalisation with the residual (operations 73 to 102).

  For each stretch, run from ANY contents, the buffer it hands on is the corresponding stage of the reference (the
  stages `val_main_vN` of the arguments, one per operation) provided the buffers it takes over held theirs, and
  the argument buffers it does not write keep their contents.  Chaining the five gives the result buffer after
  the whole line as the last stage of the arguments.
-/
import proofs.«159725_j90941637526290_1_alg».proof.Proof.RefOps
import proofs.«159725_j90941637526290_1_alg».proof.Proof.RefRead
import Idealize.ShloMosaic.Lib.Pipeline.Frame

noncomputable section

namespace Cert.ReferenceIdeal.RunStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The line is its five stretches in a row. -/
theorem ops_split : (ops (F := F)) = ((ops (F := F)).take 21) ++ ((((ops (F := F)).drop 21).take 26) ++ ((((ops (F := F)).drop 47).take 5) ++ ((((ops (F := F)).drop 52).take 20) ++ ((ops (F := F)).drop 72)))) := rfl

set_option maxRecDepth 8192 in
set_option maxHeartbeats 4000000 in
/-- The projections: queries, keys and values are their stages of the arguments; the arguments used later are kept. -/
theorem stretch1 (X : Valuation τ sig (Elt F)) :
    after ((ops (F := F)).take 21) X (Proc.devRef .tc main_v6) = val_main_v6 (F := F) (X (Proc.devRef .tc main_arg0)) (X (Proc.devRef .tc main_arg2)) (X (Proc.devRef .tc main_arg3))
    ∧ after ((ops (F := F)).take 21) X (Proc.devRef .tc main_v13) = val_main_v13 (F := F) (X (Proc.devRef .tc main_arg1)) (X (Proc.devRef .tc main_arg2)) (X (Proc.devRef .tc main_arg3))
    ∧ after ((ops (F := F)).take 21) X (Proc.devRef .tc main_v20) = val_main_v20 (F := F) (X (Proc.devRef .tc main_arg1)) (X (Proc.devRef .tc main_arg2)) (X (Proc.devRef .tc main_arg3))
    ∧ after ((ops (F := F)).take 21) X (Proc.devRef .tc main_arg0) = X (Proc.devRef .tc main_arg0)
    ∧ after ((ops (F := F)).take 21) X (Proc.devRef .tc main_arg4) = X (Proc.devRef .tc main_arg4)
    ∧ after ((ops (F := F)).take 21) X (Proc.devRef .tc main_arg5) = X (Proc.devRef .tc main_arg5)
    ∧ after ((ops (F := F)).take 21) X (Proc.devRef .tc main_arg6) = X (Proc.devRef .tc main_arg6)
    ∧ after ((ops (F := F)).take 21) X (Proc.devRef .tc main_arg7) = X (Proc.devRef .tc main_arg7)
    ∧ after ((ops (F := F)).take 21) X (Proc.devRef .tc main_arg8) = X (Proc.devRef .tc main_arg8)
    ∧ after ((ops (F := F)).take 21) X (Proc.devRef .tc main_arg9) = X (Proc.devRef .tc main_arg9)
    ∧ after ((ops (F := F)).take 21) X (Proc.devRef .tc main_arg10) = X (Proc.devRef .tc main_arg10)
    ∧ after ((ops (F := F)).take 21) X (Proc.devRef .tc main_arg11) = X (Proc.devRef .tc main_arg11) := by
  refine ⟨?_, ?_, ?_, ?_, ?_, ?_, ?_, ?_, ?_, ?_, ?_, ?_⟩
  all_goals (
    simp only [ops, List.take, List.drop]
    after_results_simp)
  all_goals rfl

set_option maxRecDepth 8192 in
set_option maxHeartbeats 4000000 in
/-- The attention: from the three projections to the context. -/
theorem stretch2 (X : Valuation τ sig (Elt F)) (x0 : (⟨S32768x896, .f32⟩ : BufTy).Contents (Elt F)) (x1 : (⟨S32768x896, .f32⟩ : BufTy).Contents (Elt F)) (x2 : (⟨S2688x896, .f32⟩ : BufTy).Contents (Elt F)) (x3 : (⟨S2688, .f32⟩ : BufTy).Contents (Elt F))
    (h6 : X (Proc.devRef .tc main_v6) = val_main_v6 (F := F) x0 x2 x3) (h13 : X (Proc.devRef .tc main_v13) = val_main_v13 (F := F) x1 x2 x3)
    (h20 : X (Proc.devRef .tc main_v20) = val_main_v20 (F := F) x1 x2 x3) :
    after (((ops (F := F)).drop 21).take 26) X (Proc.devRef .tc main_v41) = val_main_v41 (F := F) x0 x1 x2 x3
    ∧ after (((ops (F := F)).drop 21).take 26) X (Proc.devRef .tc main_arg0) = X (Proc.devRef .tc main_arg0)
    ∧ after (((ops (F := F)).drop 21).take 26) X (Proc.devRef .tc main_arg4) = X (Proc.devRef .tc main_arg4)
    ∧ after (((ops (F := F)).drop 21).take 26) X (Proc.devRef .tc main_arg5) = X (Proc.devRef .tc main_arg5)
    ∧ after (((ops (F := F)).drop 21).take 26) X (Proc.devRef .tc main_arg6) = X (Proc.devRef .tc main_arg6)
    ∧ after (((ops (F := F)).drop 21).take 26) X (Proc.devRef .tc main_arg7) = X (Proc.devRef .tc main_arg7)
    ∧ after (((ops (F := F)).drop 21).take 26) X (Proc.devRef .tc main_arg8) = X (Proc.devRef .tc main_arg8)
    ∧ after (((ops (F := F)).drop 21).take 26) X (Proc.devRef .tc main_arg9) = X (Proc.devRef .tc main_arg9)
    ∧ after (((ops (F := F)).drop 21).take 26) X (Proc.devRef .tc main_arg10) = X (Proc.devRef .tc main_arg10)
    ∧ after (((ops (F := F)).drop 21).take 26) X (Proc.devRef .tc main_arg11) = X (Proc.devRef .tc main_arg11) := by
  refine ⟨?_, ?_, ?_, ?_, ?_, ?_, ?_, ?_, ?_, ?_⟩
  · simp only [ops, List.take, List.drop]
    after_results_simp
    rw [h6, h13, h20]
    rfl
  all_goals (
    simp only [ops, List.take, List.drop]
    after_results_simp)

set_option maxRecDepth 8192 in
set_option maxHeartbeats 4000000 in
/-- The attention output: from the context to its output projection. -/
theorem stretch3a (X : Valuation τ sig (Elt F)) (x0 : (⟨S32768x896, .f32⟩ : BufTy).Contents (Elt F)) (x1 : (⟨S32768x896, .f32⟩ : BufTy).Contents (Elt F)) (x2 : (⟨S2688x896, .f32⟩ : BufTy).Contents (Elt F)) (x3 : (⟨S2688, .f32⟩ : BufTy).Contents (Elt F)) (x4 : (⟨S896x896, .f32⟩ : BufTy).Contents (Elt F)) (x5 : (⟨S896, .f32⟩ : BufTy).Contents (Elt F))
    (h41 : X (Proc.devRef .tc main_v41) = val_main_v41 (F := F) x0 x1 x2 x3) (a4 : X (Proc.devRef .tc main_arg4) = x4) (a5 : X (Proc.devRef .tc main_arg5) = x5) :
    after (((ops (F := F)).drop 47).take 5) X (Proc.devRef .tc main_v46) = val_main_v46 (F := F) x0 x1 x2 x3 x4 x5
    ∧ after (((ops (F := F)).drop 47).take 5) X (Proc.devRef .tc main_arg0) = X (Proc.devRef .tc main_arg0)
    ∧ after (((ops (F := F)).drop 47).take 5) X (Proc.devRef .tc main_arg6) = X (Proc.devRef .tc main_arg6)
    ∧ after (((ops (F := F)).drop 47).take 5) X (Proc.devRef .tc main_arg7) = X (Proc.devRef .tc main_arg7)
    ∧ after (((ops (F := F)).drop 47).take 5) X (Proc.devRef .tc main_arg8) = X (Proc.devRef .tc main_arg8)
    ∧ after (((ops (F := F)).drop 47).take 5) X (Proc.devRef .tc main_arg9) = X (Proc.devRef .tc main_arg9)
    ∧ after (((ops (F := F)).drop 47).take 5) X (Proc.devRef .tc main_arg10) = X (Proc.devRef .tc main_arg10)
    ∧ after (((ops (F := F)).drop 47).take 5) X (Proc.devRef .tc main_arg11) = X (Proc.devRef .tc main_arg11) := by
  refine ⟨?_, ?_, ?_, ?_, ?_, ?_, ?_, ?_⟩
  · simp only [ops, List.take, List.drop]
    after_results_simp
    rw [h41, a4, a5]
    rfl
  all_goals (
    simp only [ops, List.take, List.drop]
    after_results_simp)

set_option maxRecDepth 8192 in
set_option maxHeartbeats 4000000 in
/-- The gate: from the hidden state and the attention output, side by side, to the gate's second layer. -/
theorem stretch3b (X : Valuation τ sig (Elt F)) (x0 : (⟨S32768x896, .f32⟩ : BufTy).Contents (Elt F)) (x1 : (⟨S32768x896, .f32⟩ : BufTy).Contents (Elt F)) (x2 : (⟨S2688x896, .f32⟩ : BufTy).Contents (Elt F)) (x3 : (⟨S2688, .f32⟩ : BufTy).Contents (Elt F)) (x4 : (⟨S896x896, .f32⟩ : BufTy).Contents (Elt F)) (x5 : (⟨S896, .f32⟩ : BufTy).Contents (Elt F)) (x6 : (⟨S896x1792, .f32⟩ : BufTy).Contents (Elt F)) (x7 : (⟨S896, .f32⟩ : BufTy).Contents (Elt F)) (x8 : (⟨S896x896, .f32⟩ : BufTy).Contents (Elt F)) (x9 : (⟨S896, .f32⟩ : BufTy).Contents (Elt F))
    (h46 : X (Proc.devRef .tc main_v46) = val_main_v46 (F := F) x0 x1 x2 x3 x4 x5) (a0 : X (Proc.devRef .tc main_arg0) = x0) (a6 : X (Proc.devRef .tc main_arg6) = x6) (a7 : X (Proc.devRef .tc main_arg7) = x7) (a8 : X (Proc.devRef .tc main_arg8) = x8) (a9 : X (Proc.devRef .tc main_arg9) = x9) :
    after (((ops (F := F)).drop 52).take 20) X (Proc.devRef .tc main_v58) = val_main_v58 (F := F) x0 x1 x2 x3 x4 x5 x6 x7 x8 x9
    ∧ after (((ops (F := F)).drop 52).take 20) X (Proc.devRef .tc main_arg0) = X (Proc.devRef .tc main_arg0)
    ∧ after (((ops (F := F)).drop 52).take 20) X (Proc.devRef .tc main_arg10) = X (Proc.devRef .tc main_arg10)
    ∧ after (((ops (F := F)).drop 52).take 20) X (Proc.devRef .tc main_arg11) = X (Proc.devRef .tc main_arg11) := by
  refine ⟨?_, ?_, ?_, ?_⟩
  · simp only [ops, List.take, List.drop]
    after_results_simp
    try simp only [TRef.ofBuf, TRef.toBuf, cast_eq]
    rw [h46, a0, a6, a7, a8, a9]
    rfl
  all_goals (
    simp only [ops, List.take, List.drop]
    after_results_simp)

set_option maxRecDepth 8192 in
set_option maxHeartbeats 4000000 in
/-- The normalisation and the residual: from the gate's second layer to the result. -/
theorem stretch4 (X : Valuation τ sig (Elt F)) (x0 : (⟨S32768x896, .f32⟩ : BufTy).Contents (Elt F)) (x1 : (⟨S32768x896, .f32⟩ : BufTy).Contents (Elt F)) (x2 : (⟨S2688x896, .f32⟩ : BufTy).Contents (Elt F)) (x3 : (⟨S2688, .f32⟩ : BufTy).Contents (Elt F)) (x4 : (⟨S896x896, .f32⟩ : BufTy).Contents (Elt F)) (x5 : (⟨S896, .f32⟩ : BufTy).Contents (Elt F)) (x6 : (⟨S896x1792, .f32⟩ : BufTy).Contents (Elt F)) (x7 : (⟨S896, .f32⟩ : BufTy).Contents (Elt F)) (x8 : (⟨S896x896, .f32⟩ : BufTy).Contents (Elt F)) (x9 : (⟨S896, .f32⟩ : BufTy).Contents (Elt F)) (x10 : (⟨S896, .f32⟩ : BufTy).Contents (Elt F)) (x11 : (⟨S896, .f32⟩ : BufTy).Contents (Elt F))
    (h58 : X (Proc.devRef .tc main_v58) = val_main_v58 (F := F) x0 x1 x2 x3 x4 x5 x6 x7 x8 x9) (a0 : X (Proc.devRef .tc main_arg0) = x0) (a10 : X (Proc.devRef .tc main_arg10) = x10) (a11 : X (Proc.devRef .tc main_arg11) = x11) :
    after ((ops (F := F)).drop 72) X (Proc.devRef .tc main_v83) = val_main_v83 (F := F) x0 x1 x2 x3 x4 x5 x6 x7 x8 x9 x10 x11 := by
  simp only [ops, List.take, List.drop]
  after_results_simp
  rw [h58, a0, a10, a11]
  rfl

/-- AFTER THE WHOLE LINE the result buffer holds the last stage of what the argument buffers held: the five
    stretches chained, each argument's contents carried across the stretches that do not write it. -/
theorem after_v83 (X : Valuation τ sig (Elt F)) :
    after (ops (F := F)) X (Proc.devRef .tc main_v83)
      = val_main_v83 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) := by
  rw [ops_split, after_append, after_append, after_append, after_append]
  obtain ⟨h6, h13, h20, p0, p4, p5, p6, p7, p8, p9, p10, p11⟩ := stretch1 X
  obtain ⟨h41, q0, q4, q5, q6, q7, q8, q9, q10, q11⟩ := stretch2 (after ((ops (F := F)).take 21) X) _ _ _ _ h6 h13 h20
  obtain ⟨h46, r0, r6, r7, r8, r9, r10, r11⟩ := stretch3a (after (((ops (F := F)).drop 21).take 26) (after ((ops (F := F)).take 21) X)) _ _ _ _ _ _ h41 (q4.trans p4) (q5.trans p5)
  obtain ⟨h58, s0, s10, s11⟩ := stretch3b (after (((ops (F := F)).drop 47).take 5) (after (((ops (F := F)).drop 21).take 26) (after ((ops (F := F)).take 21) X))) _ _ _ _ _ _ _ _ _ _ h46
    (r0.trans (q0.trans p0)) (r6.trans (q6.trans p6)) (r7.trans (q7.trans p7)) (r8.trans (q8.trans p8)) (r9.trans (q9.trans p9))
  exact stretch4 (after (((ops (F := F)).drop 52).take 20) (after (((ops (F := F)).drop 47).take 5) (after (((ops (F := F)).drop 21).take 26) (after ((ops (F := F)).take 21) X)))) _ _ _ _ _ _ _ _ _ _ _ _ h58
    (s0.trans (r0.trans (q0.trans p0))) (s10.trans (r10.trans (q10.trans p10))) (s11.trans (r11.trans (q11.trans p11)))

set_option maxRecDepth 8192 in
set_option maxHeartbeats 40800000 in
/-- On every device, from any memory with zero counters: every weakly fair execution of the reference terminates
    with its result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
        = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v83).trans (after_v83 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.RunStages

end
-- ==== Proof.GateSpec.lean ====
/-
  The function that both programs compute, written once, over plain index functions on the extended reals.

  One row of the result depends on the same row of the two activations and on all of the weights.  For a row
  `h` of the hidden state and the matching row `phi` of the conditioning input:

    v    = phi · Wvᵀ + bv                         (the value projection: rows 1792 … 2687 of the packed projection)
    a    = v · Woᵀ + bo                           (the attention output; the context IS `v`, see below)
    z    = [h, a] · W1ᵀ + b1                      (the gate's first layer on the concatenation, 1792 → 896)
    g    = (z · σ(z)) · W2ᵀ + b2                  (SiLU, then the second layer),  σ(z) = 1 / (1 + e^(−z))
    out  = h + ( (g − μ) · (var + ε)^(−1/2) · γ + β ),   μ = (Σ g) / 896,  var = (Σ (g − μ)²) / 896.

  Every sum is a finite sum on the extended reals and every operation is the ideal instance's own, so that each
  program's text at an index is this term up to the order in which it was written.

  The attention has ONE key per query.  Its weight is a softmax over an axis of length one: with score `s`,
  `exp (s − max s) / Σ exp (s − max s)`.  When `s` is a real number this is `exp 0 / exp 0 = 1`, so the context
  is the value itself; when `s` is infinite the difference `s − s` is not `0` and the weight is not `1`.  This is
  the one place where the inputs' finiteness is used: a score is a finite sum of products of entries of the
  inputs, divided by `√112`, hence real when they are (`IsReal` and its closure lemmas below).
-/
import Idealize.ShloMosaic.PureOps.Ideal.Laws
import Idealize.ShloMosaic.Lib.ValueIdx
import Idealize.ShloMosaic.Lib.IdealHost

noncomputable section

namespace Cert.GateSpec

open Idealize.ShloMosaic Idealize.ShloMosaic.ValueIdx
open scoped BigOperators

/-- A two-axis array of extended reals. -/
abbrev Arr2 (a b : ℕ) : Type := (⟨2, ![a, b]⟩ : Shape).Idx → EReal
/-- A one-axis array of extended reals. -/
abbrev Arr1 (a : ℕ) : Type := (⟨1, ![a]⟩ : Shape).Idx → EReal

/-! ## The row function -/

/-- An affine layer with the weight given input-major: `y j = Σ k, x k · w k j + b j`. -/
def affine {K N : ℕ} (x : Fin K → EReal) (w : Fin K → Fin N → EReal) (b : Fin N → EReal) : Fin N → EReal :=
  fun j => (∑ k : Fin K, x k * w k j) + b j

/-- SiLU: `z · σ(z)`. -/
def silu (z : EReal) : EReal := z * Ideal.logistic z

/-- Two rows of 896 entries side by side. -/
def cat (h a : Fin 896 → EReal) : Fin 1792 → EReal :=
  fun k => if hk : k.val < 896 then h ⟨k.val, hk⟩ else a ⟨k.val - 896, by have := k.isLt; omega⟩

/-- The row length 896 as both programs write it. -/
def n896 : EReal := Ideal.ofBits .f32 0x44600000#32
/-- The normalisation's ε as both programs write it. -/
def lnEps : EReal := Ideal.ofBits .f32 0x3727C5AC#32

/-- The mean of a row. -/
def mean (g : Fin 896 → EReal) : EReal := Ideal.div (∑ j : Fin 896, g j) n896
/-- The (biased) variance of a row about its mean. -/
def variance (g : Fin 896 → EReal) : EReal :=
  Ideal.div (∑ j : Fin 896, (g j - mean g) * (g j - mean g)) n896

/-- Layer normalisation of a row with scale `γ` and shift `β`. -/
def layerNorm (g γ β : Fin 896 → EReal) : Fin 896 → EReal :=
  fun j => (g j - mean g) * Ideal.rsqrt (variance g + lnEps) * γ j + β j

/-- The gate's second-layer output for a row. -/
def gate (h phi : Fin 896 → EReal) (wv : Fin 896 → Fin 896 → EReal) (bv : Fin 896 → EReal)
    (wo : Fin 896 → Fin 896 → EReal) (bo : Fin 896 → EReal) (w1 : Fin 1792 → Fin 896 → EReal) (b1 : Fin 896 → EReal)
    (w2 : Fin 896 → Fin 896 → EReal) (b2 : Fin 896 → EReal) : Fin 896 → EReal :=
  affine (fun k => silu (affine (cat h (affine (affine phi wv bv) wo bo)) w1 b1 k)) w2 b2

/-- One row of the result. -/
def rowOut (h phi : Fin 896 → EReal) (wv : Fin 896 → Fin 896 → EReal) (bv : Fin 896 → EReal)
    (wo : Fin 896 → Fin 896 → EReal) (bo : Fin 896 → EReal) (w1 : Fin 1792 → Fin 896 → EReal) (b1 : Fin 896 → EReal)
    (w2 : Fin 896 → Fin 896 → EReal) (b2 γ β : Fin 896 → EReal) : Fin 896 → EReal :=
  fun j => h j + layerNorm (gate h phi wv bv wo bo w1 b1 w2 b2) γ β j

/-! ## Reading the argument arrays -/

/-- Row `r` of a two-axis array. -/
def rowOf {a b : ℕ} (x : Arr2 a b) (r : Fin a) : Fin b → EReal := fun k => x (ix2 r k)
/-- A weight stored output-major, read input-major (its transpose). -/
def trOf {a b : ℕ} (x : Arr2 a b) : Fin b → Fin a → EReal := fun k j => x (ix2 j k)
/-- A one-axis array as a function of its coordinate. -/
def vecOf {a : ℕ} (x : Arr1 a) : Fin a → EReal := fun j => x (ix1 j)
/-- A weight already stored input-major. -/
def matOf {a b : ℕ} (x : Arr2 a b) : Fin a → Fin b → EReal := fun k j => x (ix2 k j)
/-- The one row of a `[1, b]` array. -/
def row0Of {b : ℕ} (x : Arr2 1 b) : Fin b → EReal := fun j => x (ix2 (0 : Fin 1) j)
/-- The value projection's weight: rows 1792 … 2687 of the packed projection, read input-major. -/
def wvOf (x : Arr2 2688 896) : Fin 896 → Fin 896 → EReal :=
  fun k j => x (ix2 (⟨1792 + j.val, by have := j.isLt; omega⟩ : Fin 2688) k)
/-- The value projection's bias: entries 1792 … 2687 of the packed bias. -/
def bvOf (x : Arr1 2688) : Fin 896 → EReal :=
  fun j => x (ix1 (⟨1792 + j.val, by have := j.isLt; omega⟩ : Fin 2688))

/-- THE RESULT as one function of the twelve argument arrays, index by index. -/
def G (x0 x1 : Arr2 32768 896) (x2 : Arr2 2688 896) (x3 : Arr1 2688) (x4 : Arr2 896 896) (x5 : Arr1 896)
    (x6 : Arr2 896 1792) (x7 : Arr1 896) (x8 : Arr2 896 896) (x9 x10 x11 : Arr1 896) : Arr2 32768 896 :=
  fun i => rowOut (rowOf x0 ⟨(i 0).val, (i 0).isLt⟩) (rowOf x1 ⟨(i 0).val, (i 0).isLt⟩) (wvOf x2) (bvOf x3) (trOf x4) (vecOf x5)
    (trOf x6) (vecOf x7) (trOf x8) (vecOf x9) (vecOf x10) (vecOf x11) ⟨(i 1).val, (i 1).isLt⟩

theorem G_ix2 (x0 x1 : Arr2 32768 896) (x2 : Arr2 2688 896) (x3 : Arr1 2688) (x4 : Arr2 896 896) (x5 : Arr1 896)
    (x6 : Arr2 896 1792) (x7 : Arr1 896) (x8 : Arr2 896 896) (x9 x10 x11 : Arr1 896) (r : Fin 32768) (q : Fin 896) :
    G x0 x1 x2 x3 x4 x5 x6 x7 x8 x9 x10 x11 (ix2 r q)
      = rowOut (rowOf x0 r) (rowOf x1 r) (wvOf x2) (bvOf x3) (trOf x4) (vecOf x5) (trOf x6) (vecOf x7) (trOf x8) (vecOf x9)
          (vecOf x10) (vecOf x11) q := rfl

/-! ## Real entries -/

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A real divided by a real that is not zero is real. -/
theorem IsReal.div {x y : EReal} (hx : IsReal x) {b : ℝ} (hy : y = (b : EReal)) (hb : b ≠ 0) : IsReal (Ideal.div x y) := by
  obtain ⟨a, rfl⟩ := hx; subst hy
  rw [Ideal.div_coe hb]; exact ⟨a * (1 / b), (EReal.coe_mul _ _).symm⟩

/-- An affine layer of real rows, weights and biases is real. -/
theorem IsReal.affine {K N : ℕ} {x : Fin K → EReal} {w : Fin K → Fin N → EReal} {b : Fin N → EReal}
    (hx : ∀ k, IsReal (x k)) (hw : ∀ k j, IsReal (w k j)) (hb : ∀ j, IsReal (b j)) (j : Fin N) :
    IsReal (GateSpec.affine x w b j) :=
  (IsReal.sum _ _ fun k _ => (hx k).mul (hw k j)).add (hb j)

/-! ## Literals -/

/-- The word `0xFF800000` is `−∞`. -/
theorem ofBits_neg_inf_f32 : Ideal.ofBits .f32 0xFF800000#32 = ⊥ := by simp [Ideal.ofBits, Ideal.ieee]

/-- The word `0x42E00000` is the real `112`. -/
theorem ofBits_112_f32 : Ideal.ofBits .f32 0x42E00000#32 = ((112 : ℝ) : EReal) := by
  simp [Ideal.ofBits, Ideal.ieee, -EReal.coe_mul]; norm_num

/-- The score's divisor `√112` is a real number that is not zero. -/
theorem sqrt_112 : ∃ b : ℝ, b ≠ 0 ∧ Ideal.sqrt (Ideal.ofBits .f32 0x42E00000#32) = (b : EReal) := by
  refine ⟨Real.sqrt 112, (Real.sqrt_pos.mpr (by norm_num)).ne', ?_⟩
  rw [ofBits_112_f32, Ideal.sqrt_coe, if_neg (by norm_num)]

/-! ## The softmax over one key -/

/-- With one key the softmax weight of a REAL score is one: the maximum (taken from `−∞`, twice, as the reference
    writes it) is the score, the difference is `0`, and `exp 0 / (0 + exp 0) = 1`. -/
theorem softmax_single (s : EReal) (hs : IsReal s) :
    Ideal.div (Ideal.exp (s - max ⊥ (max ⊥ s))) (0 + Ideal.exp (s - max ⊥ (max ⊥ s))) = 1 := by
  obtain ⟨x, rfl⟩ := hs
  have hmax : max (⊥ : EReal) (max ⊥ (x : EReal)) = (x : EReal) := by
    rw [max_eq_right bot_le, max_eq_right bot_le]
  have hsub : (x : EReal) - (x : EReal) = ((0 : ℝ) : EReal) := by
    rw [← EReal.coe_sub, sub_self]
  rw [hmax, hsub, Ideal.exp_coe, Real.exp_zero, zero_add]
  have h1 : ((1 : ℝ) : EReal) = 1 := rfl
  rw [h1]
  unfold Ideal.div
  rw [if_neg one_ne_zero, inv_one, mul_one]

end Cert.GateSpec

end
-- ==== Proof.LibKeepdims.lean ====
/-
  Two readings at an index that a row reduction with kept dimensions meets, for any element type and any extents.

  A reduction over the columns of an `[a, b]` array leaves one value per row, an `[a]` vector. To use it against the
  `[a, b]` array again (subtract a row's maximum, divide by a row's sum) it is first cast to one column, `[a, 1]`,
  and the column is then repeated across the `b` columns. Read at `(p, q)` the result is the vector's entry `p`,
  whatever `q` is (`column_apply`). And the index that a reduction over axis 1 reads at reduced index `p` and
  coordinate `k` of the dropped axis is `(p, k)` (`lift_axis1`).
-/
import Idealize.ShloMosaic.Lib.Pipeline.Value
import Idealize.ShloMosaic.Lib.ValueIdx
import Idealize.ShloMosaic.PureOps.Reduce

noncomputable section

namespace Idealize.ShloMosaic.Keepdims

open Idealize.ShloMosaic Idealize.ShloMosaic.ValueIdx

variable {α : Type}

/-- An `[a]` vector cast to the column `[a, 1]` reads, at `(p, u)`, its entry `p`, whatever the unit coordinate. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` repeated across `b` columns reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A per-row value with its dimension kept: the `[a]` vector cast to a column and repeated across `b` columns reads,
    at `(p, q)`, the vector's entry `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) := by
  rw [broadcastTo_a1_ab_apply, shapeCast_a_a1_apply]

/-- A reduction of an `[a, b]` array over its columns reads, at row `p` and column coordinate `k`, the entry `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims

end
-- ==== Proof.KernelRow.lean ====
/-
  The idealized kernel's block at an index.

  The body works on a block of 512 rows. Over the extended reals every operation is exact and a change of format is
  the identity, so entry `(p, q)` of the block it stores can be read off the body's text layer by layer:

    * a matrix product into a zero accumulator is, at `(p, j)`, the sum over the contracted coordinate of the
      products of the operands' entries (one statement per pair of operand shapes);
    * a `[1, 896]` bias row repeated down the rows reads the row's entry; the concatenation of two `[512, 896]`
      blocks along the columns reads the first piece left of column 896 and the second from there on;
    * so row `p` of the value projection, of the attention output, and of the gate's first layer is the affine
      layer of row `p` of what it was computed from, the SiLU is entrywise, and the second layer is one more product;
    * a sum along the columns is, at row `p`, the sum of that row, which gives the mean and the variance the
      normalisation uses; the kernel subtracts the mean and squares the difference by a product with itself,
      exactly as the row function is written, so the last step is a congruence and uses no algebra.
-/
import proofs.«159725_j90941637526290_1_alg».proof.Proof.Gen.KernelIdeal.Value
import proofs.«159725_j90941637526290_1_alg».proof.Proof.GateSpec
import proofs.«159725_j90941637526290_1_alg».proof.Proof.LibKeepdims
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.RowValue

open Cert.KernelIdeal Cert.KernelIdeal.Gen Cert.GateSpec
open Idealize.ShloMosaic Idealize.ShloMosaic.ValueIdx

/-! ## A matrix product into a zero accumulator, read at an index

At the extended reals a product of a `[512, K]` block with a `[K, 896]` block accumulated into zeros is, at row `p`
and column `j`, the sum over the contracted coordinate `k` of `l (p, k) * r (k, j)`. The operand indices the
contraction forms are read coordinate by coordinate (four facts per product), and the one-axis contraction index is
exchanged for its coordinate. -/

theorem lhs_A_0 (i : S512x896.Idx) (q : dot_S512x896_S896x896_S512x896_1_0_0_1_n_n.contr.Idx) :
    (dot_S512x896_S896x896_S512x896_1_0_0_1_n_n.lhsIdx i q 0).val = (i 0).val := by
  unfold DotDims.lhsIdx
  rw [dif_neg (show ¬(0 : Fin S512x896.rank) ∈ dot_S512x896_S896x896_S512x896_1_0_0_1_n_n.lhsBatch by decide), dif_pos (show (0 : Fin S512x896.rank) ∈ dot_S512x896_S896x896_S512x896_1_0_0_1_n_n.lhsNonContracting by decide)]
  rfl
theorem lhs_A_1 (i : S512x896.Idx) (q : dot_S512x896_S896x896_S512x896_1_0_0_1_n_n.contr.Idx) :
    (dot_S512x896_S896x896_S512x896_1_0_0_1_n_n.lhsIdx i q 1).val = (q ⟨0, by decide⟩).val :=
  dot_S512x896_S896x896_S512x896_1_0_0_1_n_n.lhsIdx_val_of_single rfl i q
theorem rhs_A_0 (i : S512x896.Idx) (q : dot_S512x896_S896x896_S512x896_1_0_0_1_n_n.contr.Idx) :
    (dot_S512x896_S896x896_S512x896_1_0_0_1_n_n.rhsIdx i q 0).val = (q ⟨0, by decide⟩).val :=
  dot_S512x896_S896x896_S512x896_1_0_0_1_n_n.rhsIdx_val_of_single rfl i q
theorem rhs_A_1 (i : S512x896.Idx) (q : dot_S512x896_S896x896_S512x896_1_0_0_1_n_n.contr.Idx) :
    (dot_S512x896_S896x896_S512x896_1_0_0_1_n_n.rhsIdx i q 1).val = (i 1).val := by
  unfold DotDims.rhsIdx
  rw [dif_neg (show ¬(1 : Fin S896x896.rank) ∈ dot_S512x896_S896x896_S512x896_1_0_0_1_n_n.rhsBatch by decide), dif_pos (show (1 : Fin S896x896.rank) ∈ dot_S512x896_S896x896_S512x896_1_0_0_1_n_n.rhsNonContracting by decide)]
  rfl

/-- The `[512, 896] × [896, 896]` product into zeros at `(p, j)`. -/
theorem matmulA_at {φ₁ φ₂ : FTy} (l : FVec Ideal S512x896 φ₁) (r : FVec Ideal S896x896 φ₂) (p : Fin 512) (j : Fin 896) :
    matmul dot_S512x896_S896x896_S512x896_1_0_0_1_n_n none l r (constant S512x896 .f32 0x00000000#32) (ix2 p j)
      = ∑ k : Fin 896, l (ix2 p k) * r (ix2 k j) := by
  refine (Ideal.matmul_constant_zero_apply dot_S512x896_S896x896_S512x896_1_0_0_1_n_n none l r (ix2 p j)).trans ?_
  rw [← Equiv.sum_comp (ValueIdx.contrEquiv1 dot_S512x896_S896x896_S512x896_1_0_0_1_n_n 896 rfl rfl).symm]
  refine Finset.sum_congr rfl fun k _ => ?_
  have hk := ValueIdx.contrEquiv1_symm_val dot_S512x896_S896x896_S512x896_1_0_0_1_n_n 896 rfl rfl k
  have el : dot_S512x896_S896x896_S512x896_1_0_0_1_n_n.lhsIdx (ix2 p j) ((ValueIdx.contrEquiv1 dot_S512x896_S896x896_S512x896_1_0_0_1_n_n 896 rfl rfl).symm k) = ix2 p k := funext fun a => Fin.ext (by
    match a with
    | ⟨0, _⟩ => exact lhs_A_0 _ _
    | ⟨1, _⟩ => exact (lhs_A_1 _ _).trans hk)
  have er : dot_S512x896_S896x896_S512x896_1_0_0_1_n_n.rhsIdx (ix2 p j) ((ValueIdx.contrEquiv1 dot_S512x896_S896x896_S512x896_1_0_0_1_n_n 896 rfl rfl).symm k) = ix2 k j := funext fun a => Fin.ext (by
    match a with
    | ⟨0, _⟩ => exact (rhs_A_0 _ _).trans hk
    | ⟨1, _⟩ => exact rhs_A_1 _ _)
  rw [el, er]

theorem lhs_B_0 (i : S512x896.Idx) (q : dot_S512x1792_S1792x896_S512x896_1_0_0_1_n_n.contr.Idx) :
    (dot_S512x1792_S1792x896_S512x896_1_0_0_1_n_n.lhsIdx i q 0).val = (i 0).val := by
  unfold DotDims.lhsIdx
  rw [dif_neg (show ¬(0 : Fin S512x1792.rank) ∈ dot_S512x1792_S1792x896_S512x896_1_0_0_1_n_n.lhsBatch by decide), dif_pos (show (0 : Fin S512x1792.rank) ∈ dot_S512x1792_S1792x896_S512x896_1_0_0_1_n_n.lhsNonContracting by decide)]
  rfl
theorem lhs_B_1 (i : S512x896.Idx) (q : dot_S512x1792_S1792x896_S512x896_1_0_0_1_n_n.contr.Idx) :
    (dot_S512x1792_S1792x896_S512x896_1_0_0_1_n_n.lhsIdx i q 1).val = (q ⟨0, by decide⟩).val :=
  dot_S512x1792_S1792x896_S512x896_1_0_0_1_n_n.lhsIdx_val_of_single rfl i q
theorem rhs_B_0 (i : S512x896.Idx) (q : dot_S512x1792_S1792x896_S512x896_1_0_0_1_n_n.contr.Idx) :
    (dot_S512x1792_S1792x896_S512x896_1_0_0_1_n_n.rhsIdx i q 0).val = (q ⟨0, by decide⟩).val :=
  dot_S512x1792_S1792x896_S512x896_1_0_0_1_n_n.rhsIdx_val_of_single rfl i q
theorem rhs_B_1 (i : S512x896.Idx) (q : dot_S512x1792_S1792x896_S512x896_1_0_0_1_n_n.contr.Idx) :
    (dot_S512x1792_S1792x896_S512x896_1_0_0_1_n_n.rhsIdx i q 1).val = (i 1).val := by
  unfold DotDims.rhsIdx
  rw [dif_neg (show ¬(1 : Fin S1792x896.rank) ∈ dot_S512x1792_S1792x896_S512x896_1_0_0_1_n_n.rhsBatch by decide), dif_pos (show (1 : Fin S1792x896.rank) ∈ dot_S512x1792_S1792x896_S512x896_1_0_0_1_n_n.rhsNonContracting by decide)]
  rfl

/-- The `[512, 1792] × [1792, 896]` product into zeros at `(p, j)`. -/
theorem matmulB_at {φ₁ φ₂ : FTy} (l : FVec Ideal S512x1792 φ₁) (r : FVec Ideal S1792x896 φ₂) (p : Fin 512) (j : Fin 896) :
    matmul dot_S512x1792_S1792x896_S512x896_1_0_0_1_n_n none l r (constant S512x896 .f32 0x00000000#32) (ix2 p j)
      = ∑ k : Fin 1792, l (ix2 p k) * r (ix2 k j) := by
  refine (Ideal.matmul_constant_zero_apply dot_S512x1792_S1792x896_S512x896_1_0_0_1_n_n none l r (ix2 p j)).trans ?_
  rw [← Equiv.sum_comp (ValueIdx.contrEquiv1 dot_S512x1792_S1792x896_S512x896_1_0_0_1_n_n 1792 rfl rfl).symm]
  refine Finset.sum_congr rfl fun k _ => ?_
  have hk := ValueIdx.contrEquiv1_symm_val dot_S512x1792_S1792x896_S512x896_1_0_0_1_n_n 1792 rfl rfl k
  have el : dot_S512x1792_S1792x896_S512x896_1_0_0_1_n_n.lhsIdx (ix2 p j) ((ValueIdx.contrEquiv1 dot_S512x1792_S1792x896_S512x896_1_0_0_1_n_n 1792 rfl rfl).symm k) = ix2 p k := funext fun a => Fin.ext (by
    match a with
    | ⟨0, _⟩ => exact lhs_B_0 _ _
    | ⟨1, _⟩ => exact (lhs_B_1 _ _).trans hk)
  have er : dot_S512x1792_S1792x896_S512x896_1_0_0_1_n_n.rhsIdx (ix2 p j) ((ValueIdx.contrEquiv1 dot_S512x1792_S1792x896_S512x896_1_0_0_1_n_n 1792 rfl rfl).symm k) = ix2 k j := funext fun a => Fin.ext (by
    match a with
    | ⟨0, _⟩ => exact (rhs_B_0 _ _).trans hk
    | ⟨1, _⟩ => exact rhs_B_1 _ _)
  rw [el, er]

/-! ## A bias row, the two halves side by side, and a sum along a row -/

/-- A `[1, 896]` row repeated down the 512 rows reads, at `(p, j)`, the row's entry `j`. -/
theorem rowBias_at (P : Vec Ideal S1x896 .f32) (p : Fin 512) (j : Fin 896) :
    broadcastTo S512x896 (shapeCast S1x896 P shapeCasts_S1x896_S1x896) broadcasts_S1x896_S512x896 (ix2 p j)
      = P (ix2 (0 : Fin 1) j) := by
  rw [shapeCast_self]
  exact broadcastTo_1b_ab_apply P broadcasts_S1x896_S512x896 p j

/-- Left of column 896 the concatenation along the columns reads its first piece. -/
theorem concat_left (x₁ x₂ : S512x896.Idx → EReal) (p : Fin 512) (k : Fin 1792) (hk : k.val < 896) :
    concatenate S512x1792 1 [⟨S512x896, x₁⟩, ⟨S512x896, x₂⟩] concatenates_S512x896_S512x896_S512x1792_d1 (ix2 p k)
      = x₁ (ix2 p (⟨k.val, hk⟩ : Fin 896)) := by
  refine concatenate_pair_apply_left 1 x₁ x₂ _ (ix2 p k) rfl (ix2 p (⟨k.val, hk⟩ : Fin 896)) fun b => ?_
  match b with
  | ⟨0, _⟩ => rfl
  | ⟨1, _⟩ => rfl

/-- From column 896 on it reads its second piece, 896 columns to the left. -/
theorem concat_right (x₁ x₂ : S512x896.Idx → EReal) (p : Fin 512) (k : Fin 1792) (hk : ¬ k.val < 896) :
    concatenate S512x1792 1 [⟨S512x896, x₁⟩, ⟨S512x896, x₂⟩] concatenates_S512x896_S512x896_S512x1792_d1 (ix2 p k)
      = x₂ (ix2 p (⟨k.val - 896, by have := k.isLt; omega⟩ : Fin 896)) := by
  refine concatenate_pair_apply_right 1 x₁ x₂ _ (ix2 p k) rfl rfl
    (ix2 p (⟨k.val - 896, by have := k.isLt; omega⟩ : Fin 896)) (fun b hb => ?_) ?_
  · match b with
    | ⟨0, _⟩ => rfl
    | ⟨1, _⟩ => exact absurd rfl hb
  · show (k.val - 896) + 896 = k.val
    omega

/-- So row `p` of the concatenation is row `p` of the first piece followed by row `p` of the second. -/
theorem concat_at (x₁ x₂ : S512x896.Idx → EReal) (p : Fin 512) (k : Fin 1792) :
    concatenate S512x1792 1 [⟨S512x896, x₁⟩, ⟨S512x896, x₂⟩] concatenates_S512x896_S512x896_S512x1792_d1 (ix2 p k)
      = cat (fun c => x₁ (ix2 p c)) (fun c => x₂ (ix2 p c)) k := by
  unfold cat
  split
  · next hk => exact concat_left x₁ x₂ p k hk
  · next hk => exact concat_right x₁ x₂ p k hk

/-- The sum of a `[512, 896]` block along its columns, from zero, is at row `p` the sum of that row. -/
theorem laneSum_at (X : FVec Ideal S512x896 .f32) (p : Fin 512) :
    multiReduction .add [1] S512 X 0x00000000#32 reduces_S512x896_S512 (.inl rfl) rfl (ix1 p)
      = ∑ k : Fin 896, X (ix2 p k) := by
  refine (Ideal.multiReduction_add_single X 0x00000000#32 reduces_S512x896_S512 (.inl rfl) rfl (ix1 p)).trans ?_
  show ∑ k : Fin 896, X (reduces_S512x896_S512.lift (ix1 p) k) = _
  refine Finset.sum_congr rfl fun k _ => ?_
  exact congrArg X (Keepdims.lift_axis1 reduces_S512x896_S512 p k)

/-! ## The layers of the gate, row by row -/

/-- Row `p` of the concatenation, when row `p` of each piece is known. -/
theorem concat_row (x₁ x₂ : S512x896.Idx → EReal) (h a : Fin 896 → EReal) (p : Fin 512)
    (h1 : ∀ c, x₁ (ix2 p c) = h c) (h2 : ∀ c, x₂ (ix2 p c) = a c) (k : Fin 1792) :
    concatenate S512x1792 1 [⟨S512x896, x₁⟩, ⟨S512x896, x₂⟩] concatenates_S512x896_S512x896_S512x1792_d1 (ix2 p k)
      = cat h a k := by
  rw [concat_at]
  unfold cat
  split
  · exact h1 _
  · exact h2 _

/-- A layer on a `[512, 896]` block: the block (first narrowed to the short format, which changes nothing over the
    extended reals) times an input-major weight into zeros, plus a bias row. If row `p` of the block is `x`, row `p`
    of the result is the affine layer of `x`. -/
theorem layerA_at (X : FVec Ideal S512x896 .f32) (W : Vec Ideal S896x896 .bf16) (b : Vec Ideal S1x896 .f32)
    (x : Fin 896 → EReal) (p : Fin 512) (hx : ∀ k, X (ix2 p k) = x k) (j : Fin 896) :
    addf (matmul dot_S512x896_S896x896_S512x896_1_0_0_1_n_n none (truncf .bf16 X bitsLt_bf16_f32)
        (shapeCast S896x896 W shapeCasts_S896x896_S896x896 : FVec Ideal S896x896 .bf16) (constant S512x896 .f32 0x00000000#32))
      (broadcastTo S512x896 (shapeCast S1x896 b shapeCasts_S1x896_S1x896) broadcasts_S1x896_S512x896) (ix2 p j)
      = affine x (matOf W) (row0Of b) j := by
  rw [addf_apply, matmulA_at, rowBias_at, shapeCast_self]
  unfold affine matOf row0Of
  refine congrArg (· + b (ix2 (0 : Fin 1) j)) (Finset.sum_congr rfl fun k _ => ?_)
  exact congrArg (· * W (ix2 k j)) (hx k)

/-- The same for a `[512, 1792]` block and a `[1792, 896]` weight. -/
theorem layerB_at (X : FVec Ideal S512x1792 .f32) (W : Vec Ideal S1792x896 .bf16) (b : Vec Ideal S1x896 .f32)
    (x : Fin 1792 → EReal) (p : Fin 512) (hx : ∀ k, X (ix2 p k) = x k) (j : Fin 896) :
    addf (matmul dot_S512x1792_S1792x896_S512x896_1_0_0_1_n_n none (truncf .bf16 X bitsLt_bf16_f32)
        (shapeCast S1792x896 W shapeCasts_S1792x896_S1792x896 : FVec Ideal S1792x896 .bf16) (constant S512x896 .f32 0x00000000#32))
      (broadcastTo S512x896 (shapeCast S1x896 b shapeCasts_S1x896_S1x896) broadcasts_S1x896_S512x896) (ix2 p j)
      = affine x (matOf W) (row0Of b) j := by
  rw [addf_apply, matmulB_at, rowBias_at, shapeCast_self]
  unfold affine matOf row0Of
  refine congrArg (· + b (ix2 (0 : Fin 1) j)) (Finset.sum_congr rfl fun k _ => ?_)
  exact congrArg (· * W (ix2 k j)) (hx k)

/-- The value projection of the conditioning block, with its bias. -/
def blkV (P1 : Vec Ideal S512x896 .f32) (P2 : Vec Ideal S896x896 .bf16) (P3 : Vec Ideal S1x896 .f32) :
    FVec Ideal S512x896 .f32 :=
  addf (matmul dot_S512x896_S896x896_S512x896_1_0_0_1_n_n none (truncf .bf16 P1 bitsLt_bf16_f32)
      (shapeCast S896x896 P2 shapeCasts_S896x896_S896x896 : FVec Ideal S896x896 .bf16) (constant S512x896 .f32 0x00000000#32))
    (broadcastTo S512x896 (shapeCast S1x896 P3 shapeCasts_S1x896_S1x896) broadcasts_S1x896_S512x896)

/-- The attention output: the output projection of the value block, with its bias. -/
def blkA (P1 : Vec Ideal S512x896 .f32) (P2 : Vec Ideal S896x896 .bf16) (P3 : Vec Ideal S1x896 .f32)
    (P4 : Vec Ideal S896x896 .bf16) (P5 : Vec Ideal S1x896 .f32) : FVec Ideal S512x896 .f32 :=
  addf (matmul dot_S512x896_S896x896_S512x896_1_0_0_1_n_n none (truncf .bf16 (blkV P1 P2 P3) bitsLt_bf16_f32)
      (shapeCast S896x896 P4 shapeCasts_S896x896_S896x896 : FVec Ideal S896x896 .bf16) (constant S512x896 .f32 0x00000000#32))
    (broadcastTo S512x896 (shapeCast S1x896 P5 shapeCasts_S1x896_S1x896) broadcasts_S1x896_S512x896)

/-- The gate's first layer on the hidden block and the attention output side by side, with its bias. -/
def blkZ (P0 P1 : Vec Ideal S512x896 .f32) (P2 : Vec Ideal S896x896 .bf16) (P3 : Vec Ideal S1x896 .f32)
    (P4 : Vec Ideal S896x896 .bf16) (P5 : Vec Ideal S1x896 .f32) (P6 : Vec Ideal S1792x896 .bf16)
    (P7 : Vec Ideal S1x896 .f32) : FVec Ideal S512x896 .f32 :=
  addf (matmul dot_S512x1792_S1792x896_S512x896_1_0_0_1_n_n none
      (truncf .bf16 (concatenate S512x1792 1 [⟨S512x896, P0⟩, ⟨S512x896, blkA P1 P2 P3 P4 P5⟩]
        concatenates_S512x896_S512x896_S512x1792_d1) bitsLt_bf16_f32)
      (shapeCast S1792x896 P6 shapeCasts_S1792x896_S1792x896 : FVec Ideal S1792x896 .bf16) (constant S512x896 .f32 0x00000000#32))
    (broadcastTo S512x896 (shapeCast S1x896 P7 shapeCasts_S1x896_S1x896) broadcasts_S1x896_S512x896)

theorem blkV_at (P1 : Vec Ideal S512x896 .f32) (P2 : Vec Ideal S896x896 .bf16) (P3 : Vec Ideal S1x896 .f32)
    (p : Fin 512) (k : Fin 896) :
    blkV P1 P2 P3 (ix2 p k) = affine (rowOf P1 p) (matOf P2) (row0Of P3) k :=
  layerA_at P1 P2 P3 (rowOf P1 p) p (fun _ => rfl) k

theorem blkA_at (P1 : Vec Ideal S512x896 .f32) (P2 : Vec Ideal S896x896 .bf16) (P3 : Vec Ideal S1x896 .f32)
    (P4 : Vec Ideal S896x896 .bf16) (P5 : Vec Ideal S1x896 .f32) (p : Fin 512) (k : Fin 896) :
    blkA P1 P2 P3 P4 P5 (ix2 p k)
      = affine (affine (rowOf P1 p) (matOf P2) (row0Of P3)) (matOf P4) (row0Of P5) k :=
  layerA_at (blkV P1 P2 P3) P4 P5 _ p (blkV_at P1 P2 P3 p) k

theorem blkZ_at (P0 P1 : Vec Ideal S512x896 .f32) (P2 : Vec Ideal S896x896 .bf16) (P3 : Vec Ideal S1x896 .f32)
    (P4 : Vec Ideal S896x896 .bf16) (P5 : Vec Ideal S1x896 .f32) (P6 : Vec Ideal S1792x896 .bf16)
    (P7 : Vec Ideal S1x896 .f32) (p : Fin 512) (k : Fin 896) :
    blkZ P0 P1 P2 P3 P4 P5 P6 P7 (ix2 p k)
      = affine (cat (rowOf P0 p) (affine (affine (rowOf P1 p) (matOf P2) (row0Of P3)) (matOf P4) (row0Of P5)))
          (matOf P6) (row0Of P7) k :=
  layerB_at _ P6 P7 _ p
    (concat_row P0 (blkA P1 P2 P3 P4 P5) (rowOf P0 p) _ p (fun _ => rfl) (blkA_at P1 P2 P3 P4 P5 p)) k

/-- The second-layer product is the product of the SiLU of the first layer with the last weight, into zeros. -/
theorem pay2_eq (P0 P1 : Vec Ideal S512x896 .f32) (P2 : Vec Ideal S896x896 .bf16) (P3 : Vec Ideal S1x896 .f32)
    (P4 : Vec Ideal S896x896 .bf16) (P5 : Vec Ideal S1x896 .f32) (P6 : Vec Ideal S1792x896 .bf16)
    (P7 : Vec Ideal S1x896 .f32) (P8 : Vec Ideal S896x896 .bf16) :
    k0_pay2 P0 P1 P2 P3 P4 P5 P6 P7 P8
      = matmul dot_S512x896_S896x896_S512x896_1_0_0_1_n_n none
          (truncf .bf16 (mulf (blkZ P0 P1 P2 P3 P4 P5 P6 P7) (logistic (blkZ P0 P1 P2 P3 P4 P5 P6 P7))) bitsLt_bf16_f32)
          (shapeCast S896x896 P8 shapeCasts_S896x896_S896x896 : FVec Ideal S896x896 .bf16) (constant S512x896 .f32 0x00000000#32) := rfl

/-- The second-layer product at `(p, j)`. -/
theorem pay2_at (P0 P1 : Vec Ideal S512x896 .f32) (P2 : Vec Ideal S896x896 .bf16) (P3 : Vec Ideal S1x896 .f32)
    (P4 : Vec Ideal S896x896 .bf16) (P5 : Vec Ideal S1x896 .f32) (P6 : Vec Ideal S1792x896 .bf16)
    (P7 : Vec Ideal S1x896 .f32) (P8 : Vec Ideal S896x896 .bf16) (p : Fin 512) (j : Fin 896) :
    k0_pay2 P0 P1 P2 P3 P4 P5 P6 P7 P8 (ix2 p j)
      = ∑ k : Fin 896, silu (affine (cat (rowOf P0 p) (affine (affine (rowOf P1 p) (matOf P2) (row0Of P3)) (matOf P4) (row0Of P5)))
          (matOf P6) (row0Of P7) k) * matOf P8 k j := by
  rw [pay2_eq, matmulA_at, shapeCast_self]
  refine Finset.sum_congr rfl fun k _ => ?_
  refine congrArg (· * P8 (ix2 k j)) ?_
  show blkZ P0 P1 P2 P3 P4 P5 P6 P7 (ix2 p k) * Ideal.logistic (blkZ P0 P1 P2 P3 P4 P5 P6 P7 (ix2 p k)) = _
  rw [blkZ_at]
  rfl

/-! ## The normalisation and the result -/

section Assembly

variable (P0 P1 : Vec Ideal S512x896 .f32) (P2 : Vec Ideal S896x896 .bf16) (P3 : Vec Ideal S1x896 .f32)
  (P4 : Vec Ideal S896x896 .bf16) (P5 : Vec Ideal S1x896 .f32) (P6 : Vec Ideal S1792x896 .bf16)
  (P7 : Vec Ideal S1x896 .f32) (P8 : Vec Ideal S896x896 .bf16) (P9 : Vec Ideal S1x896 .f32)

/-- The gate's output for row `p` of the two activation blocks. -/
def gRow (p : Fin 512) : Fin 896 → EReal :=
  gate (rowOf P0 p) (rowOf P1 p) (matOf P2) (row0Of P3) (matOf P4) (row0Of P5) (matOf P6) (row0Of P7) (matOf P8) (row0Of P9)

/-- The gate's second layer as a block: the second-layer product plus its bias row. -/
def blkG : FVec Ideal S512x896 .f32 :=
  addf (k0_pay2 P0 P1 P2 P3 P4 P5 P6 P7 P8)
    (broadcastTo S512x896 (shapeCast S1x896 P9 shapeCasts_S1x896_S1x896) broadcasts_S1x896_S512x896)

theorem blkG_at (p : Fin 512) (j : Fin 896) :
    blkG P0 P1 P2 P3 P4 P5 P6 P7 P8 P9 (ix2 p j) = gRow P0 P1 P2 P3 P4 P5 P6 P7 P8 P9 p j := by
  unfold blkG
  rw [addf_apply, pay2_at, rowBias_at]
  rfl

/-- The row means of a block, kept as a column and repeated across the columns: at `(p, k)` the mean of row `p`. -/
theorem meanCol_at (X : FVec Ideal S512x896 .f32) (p : Fin 512) (k : Fin 896) :
    broadcastTo S512x896 (divf (shapeCast S512x1 (multiReduction .add [1] S512 X 0x00000000#32
        reduces_S512x896_S512 (.inl rfl) rfl) shapeCasts_S512_S512x1)
        (broadcast S512x1 (Scalar.ofBits .f32 0x44600000#32))) broadcasts_S512x1_S512x896 (ix2 p k)
      = Ideal.div (∑ c : Fin 896, X (ix2 p c)) n896 := by
  rw [Keepdims.broadcastTo_a1_ab_apply, divf_apply, Keepdims.shapeCast_a_a1_apply, laneSum_at, broadcast_apply]
  rfl

/-- The gate's second layer less its row means. -/
def blkD : FVec Ideal S512x896 .f32 :=
  subf (blkG P0 P1 P2 P3 P4 P5 P6 P7 P8 P9)
    (broadcastTo S512x896 (divf (shapeCast S512x1 (multiReduction .add [1] S512 (blkG P0 P1 P2 P3 P4 P5 P6 P7 P8 P9)
        0x00000000#32 reduces_S512x896_S512 (.inl rfl) rfl) shapeCasts_S512_S512x1)
        (broadcast S512x1 (Scalar.ofBits .f32 0x44600000#32))) broadcasts_S512x1_S512x896)

theorem blkD_at (p : Fin 512) (k : Fin 896) :
    blkD P0 P1 P2 P3 P4 P5 P6 P7 P8 P9 (ix2 p k)
      = gRow P0 P1 P2 P3 P4 P5 P6 P7 P8 P9 p k - mean (gRow P0 P1 P2 P3 P4 P5 P6 P7 P8 P9 p) := by
  unfold blkD
  rw [subf_apply, meanCol_at, blkG_at]
  unfold mean
  exact congrArg (fun s => gRow P0 P1 P2 P3 P4 P5 P6 P7 P8 P9 p k - Ideal.div s n896)
    (Finset.sum_congr rfl fun c _ => blkG_at P0 P1 P2 P3 P4 P5 P6 P7 P8 P9 p c)

end Assembly

/-- What the body leaves at row `p`, column `q` of the output block is the row function of row `p` of the two
    activation blocks and of the (whole) weight blocks. -/
theorem E12_at (P0 P1 : Vec Ideal S512x896 .f32) (P2 : Vec Ideal S896x896 .bf16) (P3 : Vec Ideal S1x896 .f32)
    (P4 : Vec Ideal S896x896 .bf16) (P5 : Vec Ideal S1x896 .f32) (P6 : Vec Ideal S1792x896 .bf16) (P7 : Vec Ideal S1x896 .f32)
    (P8 : Vec Ideal S896x896 .bf16) (P9 P10 P11 : Vec Ideal S1x896 .f32) (p : Fin 512) (q : Fin 896) :
    Cert.KernelIdeal.Value.E12 P0 P1 P2 P3 P4 P5 P6 P7 P8 P9 P10 P11 (ix2 p q)
      = rowOut (rowOf P0 p) (rowOf P1 p) (matOf P2) (row0Of P3) (matOf P4) (row0Of P5) (matOf P6) (row0Of P7) (matOf P8)
          (row0Of P9) (row0Of P10) (row0Of P11) q := by
  -- where entry (p, q) of the block reads each of its operands
  have i0 : Cert.KernelIdeal.Value.ix12_0 (ix2 p q) = ix2 p q := by
    funext a; match a with | ⟨0, _⟩ => rfl | ⟨1, _⟩ => rfl
  have i1 : Cert.KernelIdeal.Value.ix12_1 (ix2 p q) = ix2 p q := by
    funext a; match a with | ⟨0, _⟩ => rfl | ⟨1, _⟩ => rfl
  have i2 : Cert.KernelIdeal.Value.ix12_2 (ix2 p q) = ix2 (0 : Fin 1) q := by
    funext a; match a with | ⟨0, _⟩ => rfl | ⟨1, _⟩ => rfl
  have i3 : Cert.KernelIdeal.Value.ix12_3 (ix2 p q) = ix1 p := by
    funext a; match a with | ⟨0, _⟩ => rfl
  have i4 : Cert.KernelIdeal.Value.ix12_4 (ix2 p q) = ix1 p := by
    funext a; match a with | ⟨0, _⟩ => rfl
  have i5 : Cert.KernelIdeal.Value.ix12_5 (ix2 p q) = ix2 (0 : Fin 1) q := by
    funext a; match a with | ⟨0, _⟩ => rfl | ⟨1, _⟩ => rfl
  have i6 : Cert.KernelIdeal.Value.ix12_6 (ix2 p q) = ix2 (0 : Fin 1) q := by
    funext a; match a with | ⟨0, _⟩ => rfl | ⟨1, _⟩ => rfl
  -- the entry over the named intermediate blocks: the residual plus the normalised gate output
  have e : Cert.KernelIdeal.Value.E12 P0 P1 P2 P3 P4 P5 P6 P7 P8 P9 P10 P11 (ix2 p q)
      = P0 (ix2 p q) + ((k0_pay2 P0 P1 P2 P3 P4 P5 P6 P7 P8 (ix2 p q) + P9 (ix2 (0 : Fin 1) q)
            - Ideal.div (multiReduction .add [1] S512 (blkG P0 P1 P2 P3 P4 P5 P6 P7 P8 P9) 0x00000000#32
                reduces_S512x896_S512 (.inl rfl) rfl (ix1 p)) n896)
          * Ideal.rsqrt (Ideal.div (multiReduction .add [1] S512
                (mulf (blkD P0 P1 P2 P3 P4 P5 P6 P7 P8 P9) (blkD P0 P1 P2 P3 P4 P5 P6 P7 P8 P9)) 0x00000000#32
                reduces_S512x896_S512 (.inl rfl) rfl (ix1 p)) n896 + lnEps)
          * P10 (ix2 (0 : Fin 1) q) + P11 (ix2 (0 : Fin 1) q)) := by
    simp only [Cert.KernelIdeal.Value.E12]
    rw [i0, i1, i2, i3, i4, i5, i6]
    rfl
  -- the entry of the gate output, and the two sums along its row
  have hq : k0_pay2 P0 P1 P2 P3 P4 P5 P6 P7 P8 (ix2 p q) + P9 (ix2 (0 : Fin 1) q) = gRow P0 P1 P2 P3 P4 P5 P6 P7 P8 P9 p q := by
    rw [pay2_at]; rfl
  have h1 : ∑ k : Fin 896, blkG P0 P1 P2 P3 P4 P5 P6 P7 P8 P9 (ix2 p k) = ∑ k : Fin 896, gRow P0 P1 P2 P3 P4 P5 P6 P7 P8 P9 p k :=
    Finset.sum_congr rfl fun k _ => blkG_at P0 P1 P2 P3 P4 P5 P6 P7 P8 P9 p k
  have h2 : ∑ k : Fin 896, mulf (blkD P0 P1 P2 P3 P4 P5 P6 P7 P8 P9) (blkD P0 P1 P2 P3 P4 P5 P6 P7 P8 P9) (ix2 p k)
      = ∑ k : Fin 896, (gRow P0 P1 P2 P3 P4 P5 P6 P7 P8 P9 p k - mean (gRow P0 P1 P2 P3 P4 P5 P6 P7 P8 P9 p)) * (gRow P0 P1 P2 P3 P4 P5 P6 P7 P8 P9 p k - mean (gRow P0 P1 P2 P3 P4 P5 P6 P7 P8 P9 p)) :=
    Finset.sum_congr rfl fun k _ => by rw [mulf_apply, blkD_at]
  rw [e, laneSum_at, laneSum_at, hq, h1, h2]
  rfl

end Cert.KernelIdeal.RowValue

end
-- ==== Proof.KernelArray.lean ====
/-
  From the kernel's blocks to its result array.

  The grid has 64 points.  At point `t` the two activation windows and the output window hold rows
  `512·t … 512·t + 511` of their arrays, and every weight window holds its whole array.  The weight arrays are
  written by the host operations before the call: the value projection's weight is rows 1792 … 2687 of the packed
  projection, transposed; the three other weights are transposed; every bias becomes a one-row array (narrowing
  to bf16 changes nothing over the extended reals).  So the block that point `t` writes back is the restriction of
  `GateSpec.G` of the arguments to those rows, and since the 64 blocks cover the array, the array ends as `G`.
-/
import proofs.«159725_j90941637526290_1_alg».proof.Proof.KernelRow
import Idealize.ShloMosaic.Lib.ValueLayout
import Idealize.ShloMosaic.Lib.StableHlo.Run

set_option maxRecDepth 16384

noncomputable section

namespace Cert.KernelIdeal.ArrayValue

open Cert.KernelIdeal Cert.KernelIdeal.Gen Cert.GateSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result as the function `G` of the twelve argument arrays of core `c`. -/
abbrev GArgs (c : Dev nD) : GateSpec.Arr2 32768 896 :=
  G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-! ## The weight arrays as the region finds them -/

/-- The array the value projection's weight window stages. -/
abbrev wvArr (c : Dev nD) : FVec Ideal S896x896 .bf16 := V m c main_v2
/-- The array the value projection's bias window stages. -/
abbrev bvArr (c : Dev nD) : FVec Ideal S1x896 .f32 := V m c main_v4

theorem wvArr_eq (c : Dev nD) : wvArr m c
    = truncf .bf16 (transpose S896x896 [1, 0] (extractStridedSlice S896x896 ![1792, 0] (m ((c.tc : Thread nD τ).loc main_arg2)) slices_S2688x896_S896x896_1792_0) transposes_S896x896_S896x896_1_0) bitsLt_bf16_f32 := by
  show V m c main_v2 = _
  dsimp only [Gen.V, Gen.hostOps0]; after_results

/-- The value projection's weight, input-major: rows 1792 … of the packed projection, transposed. -/
theorem wv_at (c : Dev nD) (k j : Fin 896) :
    wvArr m c (ix2 k j) = (m ((c.tc : Thread nD τ).loc main_arg2)) (ix2 (⟨1792 + j.val, by have := j.isLt; omega⟩ : Fin 2688) k) := by
  rw [wvArr_eq]
  rw [truncf_apply, transpose_ix2_apply]
  exact slice2_axis0_apply 1792 _ _ j k _ rfl

theorem bvArr_eq (c : Dev nD) : bvArr m c
    = shapeCast S1x896 (extractStridedSlice S896 ![1792] (m ((c.tc : Thread nD τ).loc main_arg3)) slices_S2688_S896_1792) shapeCasts_S896_S1x896 := by
  show V m c main_v4 = _
  dsimp only [Gen.V, Gen.hostOps0]; after_results; rfl

/-- The value projection's bias as a one-row array: entries 1792 … of the packed bias. -/
theorem bv_at (c : Dev nD) (j : Fin 896) :
    bvArr m c (ix2 (0 : Fin 1) j) = (m ((c.tc : Thread nD τ).loc main_arg3)) (ix1 (⟨1792 + j.val, by have := j.isLt; omega⟩ : Fin 2688)) := by
  rw [bvArr_eq, shapeCast_a_1a_apply]
  exact extractStridedSlice_apply _ _ _ _ _ (fun ax => by
    match ax with
    | ⟨0, _⟩ => rfl)

/-- The array the attention output's weight window stages. -/
abbrev woArr (c : Dev nD) : FVec Ideal S896x896 .bf16 := V m c main_v6
/-- The array the attention output's bias window stages. -/
abbrev boArr (c : Dev nD) : FVec Ideal S1x896 .f32 := V m c main_v7
/-- The array the gate's first weight window stages. -/
abbrev w1Arr (c : Dev nD) : FVec Ideal S1792x896 .bf16 := V m c main_v9
/-- The array the gate's first bias window stages. -/
abbrev b1Arr (c : Dev nD) : FVec Ideal S1x896 .f32 := V m c main_v10
/-- The array the gate's second weight window stages. -/
abbrev w2Arr (c : Dev nD) : FVec Ideal S896x896 .bf16 := V m c main_v12
/-- The array the gate's second bias window stages. -/
abbrev b2Arr (c : Dev nD) : FVec Ideal S1x896 .f32 := V m c main_v13
/-- The array the normalisation's scale window stages. -/
abbrev gArr (c : Dev nD) : FVec Ideal S1x896 .f32 := V m c main_v14
/-- The array the normalisation's shift window stages. -/
abbrev hArr (c : Dev nD) : FVec Ideal S1x896 .f32 := V m c main_v15

theorem woArr_eq (c : Dev nD) : woArr m c
    = truncf .bf16 (transpose S896x896 [1, 0] (m ((c.tc : Thread nD τ).loc main_arg4)) transposes_S896x896_S896x896_1_0) bitsLt_bf16_f32 := by
  show V m c main_v6 = _
  dsimp only [Gen.V, Gen.hostOps0]; after_results

/-- The attention output's weight, input-major: the stored weight transposed. -/
theorem wo_at (c : Dev nD) (k j : Fin 896) : woArr m c (ix2 k j) = (m ((c.tc : Thread nD τ).loc main_arg4)) (ix2 j k) := by
  rw [woArr_eq, truncf_apply, transpose_ix2_apply]

theorem w1Arr_eq (c : Dev nD) : w1Arr m c
    = truncf .bf16 (transpose S1792x896 [1, 0] (m ((c.tc : Thread nD τ).loc main_arg6)) transposes_S896x1792_S1792x896_1_0) bitsLt_bf16_f32 := by
  show V m c main_v9 = _
  dsimp only [Gen.V, Gen.hostOps0]; after_results

/-- The gate's first weight, input-major (1792 inputs, 896 outputs): the stored weight transposed. -/
theorem w1_at (c : Dev nD) (k : Fin 1792) (j : Fin 896) : w1Arr m c (ix2 k j) = (m ((c.tc : Thread nD τ).loc main_arg6)) (ix2 j k) := by
  rw [w1Arr_eq, truncf_apply, transpose_ix2_apply]

theorem w2Arr_eq (c : Dev nD) : w2Arr m c
    = truncf .bf16 (transpose S896x896 [1, 0] (m ((c.tc : Thread nD τ).loc main_arg8)) transposes_S896x896_S896x896_1_0) bitsLt_bf16_f32 := by
  show V m c main_v12 = _
  dsimp only [Gen.V, Gen.hostOps0]; after_results

/-- The gate's second weight, input-major: the stored weight transposed. -/
theorem w2_at (c : Dev nD) (k j : Fin 896) : w2Arr m c (ix2 k j) = (m ((c.tc : Thread nD τ).loc main_arg8)) (ix2 j k) := by
  rw [w2Arr_eq, truncf_apply, transpose_ix2_apply]

theorem boArr_eq (c : Dev nD) : boArr m c = shapeCast S1x896 (m ((c.tc : Thread nD τ).loc main_arg5)) shapeCasts_S896_S1x896 := by
  show V m c main_v7 = _
  dsimp only [Gen.V, Gen.hostOps0]; after_results; rfl
theorem b1Arr_eq (c : Dev nD) : b1Arr m c = shapeCast S1x896 (m ((c.tc : Thread nD τ).loc main_arg7)) shapeCasts_S896_S1x896 := by
  show V m c main_v10 = _
  dsimp only [Gen.V, Gen.hostOps0]; after_results; rfl
theorem b2Arr_eq (c : Dev nD) : b2Arr m c = shapeCast S1x896 (m ((c.tc : Thread nD τ).loc main_arg9)) shapeCasts_S896_S1x896 := by
  show V m c main_v13 = _
  dsimp only [Gen.V, Gen.hostOps0]; after_results; rfl
theorem gArr_eq (c : Dev nD) : gArr m c = shapeCast S1x896 (m ((c.tc : Thread nD τ).loc main_arg10)) shapeCasts_S896_S1x896 := by
  show V m c main_v14 = _
  dsimp only [Gen.V, Gen.hostOps0]; after_results; rfl
theorem hArr_eq (c : Dev nD) : hArr m c = shapeCast S1x896 (m ((c.tc : Thread nD τ).loc main_arg11)) shapeCasts_S896_S1x896 := by
  show V m c main_v15 = _
  dsimp only [Gen.V, Gen.hostOps0]; after_results; rfl

/-- A bias, scale or shift as a one-row array reads the vector it was cast from. -/
theorem bo_at (c : Dev nD) (j : Fin 896) : boArr m c (ix2 (0 : Fin 1) j) = (m ((c.tc : Thread nD τ).loc main_arg5)) (ix1 j) := by
  rw [boArr_eq, shapeCast_a_1a_apply]
theorem b1_at (c : Dev nD) (j : Fin 896) : b1Arr m c (ix2 (0 : Fin 1) j) = (m ((c.tc : Thread nD τ).loc main_arg7)) (ix1 j) := by
  rw [b1Arr_eq, shapeCast_a_1a_apply]
theorem b2_at (c : Dev nD) (j : Fin 896) : b2Arr m c (ix2 (0 : Fin 1) j) = (m ((c.tc : Thread nD τ).loc main_arg9)) (ix1 j) := by
  rw [b2Arr_eq, shapeCast_a_1a_apply]
theorem g_at (c : Dev nD) (j : Fin 896) : gArr m c (ix2 (0 : Fin 1) j) = (m ((c.tc : Thread nD τ).loc main_arg10)) (ix1 j) := by
  rw [gArr_eq, shapeCast_a_1a_apply]
theorem h_at (c : Dev nD) (j : Fin 896) : hArr m c (ix2 (0 : Fin 1) j) = (m ((c.tc : Thread nD τ).loc main_arg11)) (ix1 j) := by
  rw [hArr_eq, shapeCast_a_1a_apply]

/-! ## What the body leaves at an entry of the output block -/

theorem hz : (![0, 0] : Fin 2 → Nat) = fun _ => 0 := funext fun a => by fin_cases a <;> rfl

/-- The output block, as the frame names it from the input blocks, at row `p` and column `q`. -/
theorem out12_at (x0 x1 : Vec Ideal S512x896 .f32) (x2 : Vec Ideal S896x896 .bf16) (x3 : Vec Ideal S1x896 .f32)
    (x4 : Vec Ideal S896x896 .bf16) (x5 : Vec Ideal S1x896 .f32) (x6 : Vec Ideal S1792x896 .bf16) (x7 : Vec Ideal S1x896 .f32)
    (x8 : Vec Ideal S896x896 .bf16) (x9 x10 x11 : Vec Ideal S1x896 .f32) (p : Fin 512) (q : Fin 896) :
    out0_12 x0 x1 x2 x3 x4 x5 x6 x7 x8 x9 x10 x11 (ix2 p q)
      = rowOut (rowOf x0 p) (rowOf x1 p) (matOf x2) (row0Of x3) (matOf x4) (row0Of x5) (matOf x6) (row0Of x7) (matOf x8)
          (row0Of x9) (row0Of x10) (row0Of x11) q := by
  unfold out0_12
  simp only [View.ld_unit_zero (S := S512x896) hz, View.ld_unit_zero (S := S896x896) hz,
    View.ld_unit_zero (S := S1x896) hz, View.ld_unit_zero (S := S1792x896) hz]
  rw [Cert.KernelIdeal.Value.canon12_eq]
  exact Cert.KernelIdeal.RowValue.E12_at x0 x1 x2 x3 x4 x5 x6 x7 x8 x9 x10 x11 p q

/-! ## The windows' blocks -/

/-- Where each window's block sits at point `t`, decided over the 64 points: the activations' and the output's
    blocks are block row `t`; every weight's block is its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- The blocks the body reads at point `t`, each at its literal shape. -/
abbrev blk0 (c : Dev nD) (t : Fin cfg0.N) : Vec Ideal S512x896 .f32 := iblk m c 0 t
abbrev blk1 (c : Dev nD) (t : Fin cfg0.N) : Vec Ideal S512x896 .f32 := iblk m c 1 t
abbrev blk2 (c : Dev nD) (t : Fin cfg0.N) : Vec Ideal S896x896 .bf16 := iblk m c 2 t
abbrev blk3 (c : Dev nD) (t : Fin cfg0.N) : Vec Ideal S1x896 .f32 := iblk m c 3 t
abbrev blk4 (c : Dev nD) (t : Fin cfg0.N) : Vec Ideal S896x896 .bf16 := iblk m c 4 t
abbrev blk5 (c : Dev nD) (t : Fin cfg0.N) : Vec Ideal S1x896 .f32 := iblk m c 5 t
abbrev blk6 (c : Dev nD) (t : Fin cfg0.N) : Vec Ideal S1792x896 .bf16 := iblk m c 6 t
abbrev blk7 (c : Dev nD) (t : Fin cfg0.N) : Vec Ideal S1x896 .f32 := iblk m c 7 t
abbrev blk8 (c : Dev nD) (t : Fin cfg0.N) : Vec Ideal S896x896 .bf16 := iblk m c 8 t
abbrev blk9 (c : Dev nD) (t : Fin cfg0.N) : Vec Ideal S1x896 .f32 := iblk m c 9 t
abbrev blk10 (c : Dev nD) (t : Fin cfg0.N) : Vec Ideal S1x896 .f32 := iblk m c 10 t
abbrev blk11 (c : Dev nD) (t : Fin cfg0.N) : Vec Ideal S1x896 .f32 := iblk m c 11 t

/-- Row `p` of the hidden state's block at point `t` is row `512·t + p` of the array. -/
theorem blk0_at (c : Dev nD) (t : Fin cfg0.N) (p : Fin 512) (k : Fin 896) :
    blk0 m c t (ix2 p k)
      = (m ((c.tc : Thread nD τ).loc main_arg0)) (ix2 (⟨t.val * 512 + p.val, by have ht : t.val < 64 := t.isLt; have := p.isLt; omega⟩ : Fin 32768) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 896 + 1 * k.val = k.val; omega

/-- Row `p` of the conditioning input's block at point `t` is row `512·t + p` of the array. -/
theorem blk1_at (c : Dev nD) (t : Fin cfg0.N) (p : Fin 512) (k : Fin 896) :
    blk1 m c t (ix2 p k)
      = (m ((c.tc : Thread nD τ).loc main_arg1)) (ix2 (⟨t.val * 512 + p.val, by have ht : t.val < 64 := t.isLt; have := p.isLt; omega⟩ : Fin 32768) k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 896 + 1 * k.val = k.val; omega

/-- A weight window's block is its whole array, at every point. -/
theorem blk2_eq (c : Dev nD) (t : Fin cfg0.N) : blk2 m c t = wvArr m c := by
  obtain ⟨-, -, -, -, -, -, e0, e1, -⟩ := idx_facts t
  funext y
  show V m c main_v2 (((cfg0.win 2).blk t).view.emb y) = V m c main_v2 y
  refine congrArg _ (funext fun a => Fin.ext ?_)
  match a with
  | ⟨0, _⟩ => show win0_2.index t (0 : Fin 2) * 896 + 1 * (y 0).val = (y 0).val; omega
  | ⟨1, _⟩ => show win0_2.index t (1 : Fin 2) * 896 + 1 * (y 1).val = (y 1).val; omega
theorem blk3_eq (c : Dev nD) (t : Fin cfg0.N) : blk3 m c t = bvArr m c := by
  obtain ⟨-, -, -, -, -, -, -, -, e0, e1, -⟩ := idx_facts t
  funext y
  show V m c main_v4 (((cfg0.win 3).blk t).view.emb y) = V m c main_v4 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 896 + 1 * (y 1).val = (y 1).val; omega
theorem blk4_eq (c : Dev nD) (t : Fin cfg0.N) : blk4 m c t = woArr m c := by
  obtain ⟨-, -, -, -, -, -, -, -, -, -, e0, e1, -⟩ := idx_facts t
  funext y
  show V m c main_v6 (((cfg0.win 4).blk t).view.emb y) = V m c main_v6 y
  refine congrArg _ (funext fun a => Fin.ext ?_)
  match a with
  | ⟨0, _⟩ => show win0_4.index t (0 : Fin 2) * 896 + 1 * (y 0).val = (y 0).val; omega
  | ⟨1, _⟩ => show win0_4.index t (1 : Fin 2) * 896 + 1 * (y 1).val = (y 1).val; omega
theorem blk5_eq (c : Dev nD) (t : Fin cfg0.N) : blk5 m c t = boArr m c := by
  obtain ⟨-, -, -, -, -, -, -, -, -, -, -, -, e0, e1, -⟩ := idx_facts t
  funext y
  show V m c main_v7 (((cfg0.win 5).blk t).view.emb y) = V m c main_v7 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 896 + 1 * (y 1).val = (y 1).val; omega
theorem blk6_eq (c : Dev nD) (t : Fin cfg0.N) : blk6 m c t = w1Arr m c := by
  obtain ⟨-, -, -, -, -, -, -, -, -, -, -, -, -, -, e0, e1, -⟩ := idx_facts t
  funext y
  show V m c main_v9 (((cfg0.win 6).blk t).view.emb y) = V m c main_v9 y
  refine congrArg _ (funext fun a => Fin.ext ?_)
  match a with
  | ⟨0, _⟩ => show win0_6.index t (0 : Fin 2) * 1792 + 1 * (y 0).val = (y 0).val; omega
  | ⟨1, _⟩ => show win0_6.index t (1 : Fin 2) * 896 + 1 * (y 1).val = (y 1).val; omega
theorem blk7_eq (c : Dev nD) (t : Fin cfg0.N) : blk7 m c t = b1Arr m c := by
  obtain ⟨-, -, -, -, -, -, -, -, -, -, -, -, -, -, -, -, e0, e1, -⟩ := idx_facts t
  funext y
  show V m c main_v10 (((cfg0.win 7).blk t).view.emb y) = V m c main_v10 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 896 + 1 * (y 1).val = (y 1).val; omega
theorem blk8_eq (c : Dev nD) (t : Fin cfg0.N) : blk8 m c t = w2Arr m c := by
  obtain ⟨-, -, -, -, -, -, -, -, -, -, -, -, -, -, -, -, -, -, e0, e1, -⟩ := idx_facts t
  funext y
  show V m c main_v12 (((cfg0.win 8).blk t).view.emb y) = V m c main_v12 y
  refine congrArg _ (funext fun a => Fin.ext ?_)
  match a with
  | ⟨0, _⟩ => show win0_8.index t (0 : Fin 2) * 896 + 1 * (y 0).val = (y 0).val; omega
  | ⟨1, _⟩ => show win0_8.index t (1 : Fin 2) * 896 + 1 * (y 1).val = (y 1).val; omega
theorem blk9_eq (c : Dev nD) (t : Fin cfg0.N) : blk9 m c t = b2Arr m c := by
  obtain ⟨-, -, -, -, -, -, -, -, -, -, -, -, -, -, -, -, -, -, -, -, e0, e1, -⟩ := idx_facts t
  funext y
  show V m c main_v13 (((cfg0.win 9).blk t).view.emb y) = V m c main_v13 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 896 + 1 * (y 1).val = (y 1).val; omega
theorem blk10_eq (c : Dev nD) (t : Fin cfg0.N) : blk10 m c t = gArr m c := by
  obtain ⟨-, -, -, -, -, -, -, -, -, -, -, -, -, -, -, -, -, -, -, -, -, -, e0, e1, -⟩ := idx_facts t
  funext y
  show V m c main_v14 (((cfg0.win 10).blk t).view.emb y) = V m c main_v14 y
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 896 + 1 * (y 1).val = (y 1).val; omega
theorem blk11_eq (c : Dev nD) (t : Fin cfg0.N) : blk11 m c t = hArr m c := by
  obtain ⟨-, -, -, -, -, -, -, -, -, -, -, -, -, -, -, -, -, -, -, -, -, -, -, -, e0, e1⟩ := idx_facts t
  funext y
  show V m c main_v15 (((cfg0.win 11).blk t).view.emb y) = V m c main_v15 y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 896 + 1 * (y 1).val = (y 1).val; omega

/-! ## The block a point writes back, the cover, and the array -/

/-- WHAT POINT `t` WRITES BACK is block `t` of `G` of the arguments: rows `512·t … 512·t + 511`. -/
theorem flushed12_eq (c : Dev nD) (t : Fin cfg0.N) :
    (dats m 0 c).flushed 12 t = ((cfg0.win 12).blk t).view.read (Elt Ideal) (GArgs m c) := by
  rw [Cert.KernelIdeal.Value.flushed12]
  obtain ⟨-, -, -, -, e0, e1, -⟩ := idx_facts t
  funext y
  obtain ⟨p, q, rfl⟩ : ∃ (p : Fin 512) (q : Fin 896), y = ix2 p q := ⟨y 0, y 1, eq_ix2 y⟩
  show out0_12 (blk0 m c t) (blk1 m c t) (blk2 m c t) (blk3 m c t) (blk4 m c t) (blk5 m c t) (blk6 m c t) (blk7 m c t)
      (blk8 m c t) (blk9 m c t) (blk10 m c t) (blk11 m c t) (ix2 p q)
    = GArgs m c (((cfg0.win 12).blk t).view.emb (ix2 p q))
  have ht : t.val < 64 := t.isLt
  have hi : ((cfg0.win 12).blk t).view.emb (ix2 p q)
      = ix2 (⟨t.val * 512 + p.val, by have := p.isLt; omega⟩ : Fin 32768) q := by
    funext a; apply Fin.ext
    match a with
    | ⟨0, _⟩ => show win0_12.index t (0 : Fin 2) * 512 + 1 * p.val = t.val * 512 + p.val; omega
    | ⟨1, _⟩ => show win0_12.index t (1 : Fin 2) * 896 + 1 * q.val = q.val; omega
  rw [hi]
  dsimp only [GArgs]
  rw [G_ix2, out12_at]
  have h0 : rowOf (blk0 m c t) p = rowOf (m ((c.tc : Thread nD τ).loc main_arg0)) (⟨t.val * 512 + p.val, by have := p.isLt; omega⟩ : Fin 32768) :=
    funext fun k => blk0_at m c t p k
  have h1 : rowOf (blk1 m c t) p = rowOf (m ((c.tc : Thread nD τ).loc main_arg1)) (⟨t.val * 512 + p.val, by have := p.isLt; omega⟩ : Fin 32768) :=
    funext fun k => blk1_at m c t p k
  have h2 : matOf (blk2 m c t) = wvOf (m ((c.tc : Thread nD τ).loc main_arg2)) := by
    rw [blk2_eq]; exact funext fun k => funext fun j => wv_at m c k j
  have h3 : row0Of (blk3 m c t) = bvOf (m ((c.tc : Thread nD τ).loc main_arg3)) := by
    rw [blk3_eq]; exact funext fun j => bv_at m c j
  have h4 : matOf (blk4 m c t) = trOf (m ((c.tc : Thread nD τ).loc main_arg4)) := by
    rw [blk4_eq]; exact funext fun k => funext fun j => wo_at m c k j
  have h5 : row0Of (blk5 m c t) = vecOf (m ((c.tc : Thread nD τ).loc main_arg5)) := by
    rw [blk5_eq]; exact funext fun j => bo_at m c j
  have h6 : matOf (blk6 m c t) = trOf (m ((c.tc : Thread nD τ).loc main_arg6)) := by
    rw [blk6_eq]; exact funext fun k => funext fun j => w1_at m c k j
  have h7 : row0Of (blk7 m c t) = vecOf (m ((c.tc : Thread nD τ).loc main_arg7)) := by
    rw [blk7_eq]; exact funext fun j => b1_at m c j
  have h8 : matOf (blk8 m c t) = trOf (m ((c.tc : Thread nD τ).loc main_arg8)) := by
    rw [blk8_eq]; exact funext fun k => funext fun j => w2_at m c k j
  have h9 : row0Of (blk9 m c t) = vecOf (m ((c.tc : Thread nD τ).loc main_arg9)) := by
    rw [blk9_eq]; exact funext fun j => b2_at m c j
  have h10 : row0Of (blk10 m c t) = vecOf (m ((c.tc : Thread nD τ).loc main_arg10)) := by
    rw [blk10_eq]; exact funext fun j => g_at m c j
  have h11 : row0Of (blk11 m c t) = vecOf (m ((c.tc : Thread nD τ).loc main_arg11)) := by
    rw [blk11_eq]; exact funext fun j => h_at m c j
  rw [h0, h1, h2, h3, h4, h5, h6, h7, h8, h9, h10, h11]

/-- An index of the array is in point `t`'s block iff each coordinate is in the block's range on its axis. -/
theorem mem_blk12 (t : Fin cfg0.N) (i : S32768x896.Idx) :
    i ∈ ((cfg0.win 12).blk t).view.set ↔ ∀ a : Fin 2, win0_12.index t a * S512x896.size a ≤ (i a).val ∧ (i a).val < win0_12.index t a * S512x896.size a + S512x896.size a := by
  show i ∈ ((View.whole main_v16).slice (win0_12.rect t)).set ↔ _
  rw [View.set_slice_whole, Rect.mem_set_unit]
  exact Iff.rfl

/-- The 64 blocks cover the array: row `r` lies in the block of point `r / 512`. -/
theorem cover12 (i : S32768x896.Idx) :
    ∃ t : Fin cfg0.N, (cfg0.win 12).flush t = true ∧ i ∈ ((cfg0.win 12).blk t).view.set := by
  have hi0 : (i 0).val < 32768 := (i 0).isLt
  have hi1 : (i 1).val < 896 := (i 1).isLt
  have hlt : (i 0).val / 512 < 64 := by omega
  obtain ⟨-, -, -, -, e0, e1, -⟩ := idx_facts (⟨(i 0).val / 512, hlt⟩ : Fin cfg0.N)
  have e0' : win0_12.index (⟨(i 0).val / 512, hlt⟩ : Fin cfg0.N) (0 : Fin 2) = (i 0).val / 512 := e0
  refine ⟨⟨(i 0).val / 512, hlt⟩, flush0_12 _, ?_⟩
  rw [mem_blk12]
  intro a
  match a with
  | ⟨0, _⟩ =>
    show win0_12.index (⟨(i 0).val / 512, hlt⟩ : Fin cfg0.N) (0 : Fin 2) * 512 ≤ (i 0).val
      ∧ (i 0).val < win0_12.index (⟨(i 0).val / 512, hlt⟩ : Fin cfg0.N) (0 : Fin 2) * 512 + 512
    omega
  | ⟨1, _⟩ =>
    show win0_12.index (⟨(i 0).val / 512, hlt⟩ : Fin cfg0.N) (1 : Fin 2) * 896 ≤ (i 1).val
      ∧ (i 1).val < win0_12.index (⟨(i 0).val / 512, hlt⟩ : Fin cfg0.N) (1 : Fin 2) * 896 + 896
    omega

/-- After the run the output array is `G` of the arguments. -/
theorem final12 (c : Dev nD) : (dats m 0 c).arrAt 12 cfg0.N = GArgs m c :=
  (dats m 0 c).arrAt_eq_of_cover 12 (GArgs m c) (fun t _ => flushed12_eq m c t) cover12

/-- The idealized kernel's run with its result named. -/
theorem run : θ_run defs (onTc (τ := τ) (main (F := Ideal))) ⟨m, fun _ => 0, ρ⟩ fun r => ∀ c : Dev nD,
      r.2.mem ((c.tc : Thread nD τ).loc main_v16) = GArgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (final12 m c), (h c).2⟩) (Cert.KernelIdeal.Value.run_blocks m ρ)

end Cert.KernelIdeal.ArrayValue

end
-- ==== Proof.RefAttention.lean ====
/-
  The reference's attention with one key.

  Each query has exactly one key, so the attention weight is a softmax over an axis of length one: with score s it is
  exp (s − m) / (0 + exp (s − m)), where m = max (−∞) (max (−∞) s) is the maximum over the one key as the reference
  writes it.  The score is a sum of 112 products of a query entry and a key entry, divided by the square root of 112;
  queries and keys are affine images of the inputs, so the score is a real number when the inputs' entries are.  For a
  real score m = s, s − s = 0 and the weight is exp 0 / exp 0 = 1.  The context is the weight, repeated along each head's
  112 entries, times the value projection viewed as 8 heads of 112; viewing it flat again gives the value projection.
-/
import proofs.«159725_j90941637526290_1_alg».proof.Proof.RefRead
import proofs.«159725_j90941637526290_1_alg».proof.Proof.GateSpec

noncomputable section

namespace Cert.ReferenceIdeal.Attention

open Cert.ReferenceIdeal Cert.ReferenceIdeal.ReadP Cert.GateSpec
open Idealize.ShloMosaic Idealize.ShloMosaic.ValueIdx

/-- Splitting a row of 896 entries into 8 groups of 112 and flattening it again gives the same position. -/
theorem idx_roundtrip (i : S32768x896.Idx) : idx_main_v23 (idx_main_v41 i) = i := by
  funext a
  apply Fin.ext
  have h0 : (i 0).val < 32768 := (i 0).isLt
  have h1 : (i 1).val < 896 := (i 1).isLt
  match a with
  | ⟨0, _⟩ =>
    show ((((i 0).val * 896 + (i 1).val) / 896 * 8 + ((i 0).val * 896 + (i 1).val) / 112 % 8) * 112
      + ((i 0).val * 896 + (i 1).val) % 112) / 896 = (i 0).val
    omega
  | ⟨1, _⟩ =>
    show ((((i 0).val * 896 + (i 1).val) / 896 * 8 + ((i 0).val * 896 + (i 1).val) / 112 % 8) * 112
      + ((i 0).val * 896 + (i 1).val) % 112) % 896 = (i 1).val
    omega

section Real

variable (x0 x1 : (⟨S32768x896, .f32⟩ : BufTy).Contents (Elt Ideal)) (x2 : (⟨S2688x896, .f32⟩ : BufTy).Contents (Elt Ideal))
  (x3 : (⟨S2688, .f32⟩ : BufTy).Contents (Elt Ideal))

/-- A query entry is a finite sum of products of real entries plus a real bias entry. -/
theorem real_v6 (h0 : ∀ i, IsReal (x0 i)) (h2 : ∀ i, IsReal (x2 i)) (h3 : ∀ i, IsReal (x3 i)) (i : S32768x896.Idx) :
    IsReal (val_main_v6 (F := Ideal) x0 x2 x3 i) := by
  rw [val_main_v6_apply]
  refine IsReal.add ?_ ?_
  · rw [val_main_v2_apply]
    refine IsReal.sum _ _ fun k _ => IsReal.mul (h0 _) ?_
    rw [val_main_v1_apply, val_main_v0_apply]
    exact h2 _
  · rw [val_main_v5_apply, val_main_v4_apply, val_main_v3_apply]
    exact h3 _

/-- A key entry likewise. -/
theorem real_v13 (h1 : ∀ i, IsReal (x1 i)) (h2 : ∀ i, IsReal (x2 i)) (h3 : ∀ i, IsReal (x3 i)) (i : S32768x896.Idx) :
    IsReal (val_main_v13 (F := Ideal) x1 x2 x3 i) := by
  rw [val_main_v13_apply]
  refine IsReal.add ?_ ?_
  · rw [val_main_v9_apply]
    refine IsReal.sum _ _ fun k _ => IsReal.mul (h1 _) ?_
    rw [val_main_v8_apply, val_main_v7_apply]
    exact h2 _
  · rw [val_main_v12_apply, val_main_v11_apply, val_main_v10_apply]
    exact h3 _

/-- A score is a finite sum of products of query and key entries, divided by the square root of 112: a real number. -/
theorem real_v29 (h0 : ∀ i, IsReal (x0 i)) (h1 : ∀ i, IsReal (x1 i)) (h2 : ∀ i, IsReal (x2 i)) (h3 : ∀ i, IsReal (x3 i))
    (j : S32768x8x1.Idx) : IsReal (val_main_v29 (F := Ideal) x0 x1 x2 x3 j) := by
  obtain ⟨b, hb, hsq⟩ := sqrt_112
  rw [val_main_v29_apply]
  refine IsReal.div ?_ (b := b) ?_ hb
  · rw [val_main_v26_apply, val_main_v25_apply]
    refine IsReal.add ?_ (IsReal.sum _ _ fun k _ => ?_)
    · rw [val_main_cst_apply]
      show IsReal (Ideal.ofBits .f32 0x00000000#32)
      rw [Ideal.ofBits_zero_f32]
      exact IsReal.zero
    · rw [val_main_v24_apply]
      refine IsReal.mul ?_ ?_
      · rw [val_main_v21_apply]
        exact real_v6 x0 x2 x3 h0 h2 h3 _
      · rw [val_main_v22_apply]
        exact real_v13 x1 x2 x3 h1 h2 h3 _
  · rw [val_main_v28_apply, val_main_v27_apply, val_main_cst_0_apply]
    exact hsq

end Real

section Weight

variable (x0 x1 : (⟨S32768x896, .f32⟩ : BufTy).Contents (Elt Ideal)) (x2 : (⟨S2688x896, .f32⟩ : BufTy).Contents (Elt Ideal))
  (x3 : (⟨S2688, .f32⟩ : BufTy).Contents (Elt Ideal))

/-- The key axis of the score array is its last one, of length one. -/
theorem reduces_unit : S32768x8x1.Reduces [2] S32768x8 := by decide

/-- A position of the score array with its key coordinate dropped and any key coordinate put back is the same
    position: the key axis has one coordinate only. -/
theorem lift_unit (j : S32768x8x1.Idx) (k : Fin (S32768x8x1.size 2)) : reduces_unit.lift (idx_main_v33 j) k = j := by
  funext c
  apply Fin.ext
  have hk : k.val < 1 := k.isLt
  have hj : (j 2).val < 1 := (j 2).isLt
  match c with
  | ⟨0, _⟩ => rfl
  | ⟨1, _⟩ => rfl
  | ⟨2, _⟩ =>
    show k.val = (j 2).val
    omega

/-- Likewise for the positions the sum over the key axis reads. -/
theorem idx_unit (j : S32768x8x1.Idx) (k : Fin 1) : idx_main_v36 (idx_main_v37 j) k = j := by
  funext c
  apply Fin.ext
  have hk : k.val < 1 := k.isLt
  have hj : (j 2).val < 1 := (j 2).isLt
  match c with
  | ⟨0, _⟩ => rfl
  | ⟨1, _⟩ => rfl
  | ⟨2, _⟩ =>
    show k.val = (j 2).val
    omega

/-- A fold of a commutative and associative operation over an index set of one element is one application. -/
theorem fold_fin_one {α : Type} {n : ℕ} (hn : n = 1) (op : α → α → α) [Std.Commutative op] [Std.Associative op] (b : α)
    (f : Fin n → α) : Finset.fold op b f (Finset.univ : Finset (Fin n)) = op (f ⟨0, by omega⟩) b := by
  subst hn
  rw [Finset.univ_unique, Finset.fold_singleton]
  rfl

/-- The maximum over the one key, taken from −∞, is the maximum of −∞ and the score. -/
theorem v30_at (j : S32768x8x1.Idx) :
    val_main_v30 (F := Ideal) x0 x1 x2 x3 (idx_main_v33 j) = max ⊥ (val_main_v29 (F := Ideal) x0 x1 x2 x3 j) := by
  unfold val_main_v30
  rw [Host.reduce_eq_fold_single FloatOps.maximumf _ _ Gen.reducesTo_S32768x8x1_S32768x8_d2 reduces_unit Gen.h_S_]
  refine (fold_fin_one (n := S32768x8x1.size 2) rfl (FloatOps.maximumf (F := Ideal) (φ := .f32)) _ _).trans ?_
  show max (val_main_v29 (F := Ideal) x0 x1 x2 x3 (reduces_unit.lift (idx_main_v33 j) _)) (Ideal.ofBits .f32 0xFF800000#32) = _
  rw [lift_unit, ofBits_neg_inf_f32, max_comm]

/-- The numerator of the weight: the exponential of the score less the maximum as the reference writes it. -/
theorem v35_at (j : S32768x8x1.Idx) :
    val_main_v35 (F := Ideal) x0 x1 x2 x3 j
      = Ideal.exp (val_main_v29 (F := Ideal) x0 x1 x2 x3 j - max ⊥ (max ⊥ (val_main_v29 (F := Ideal) x0 x1 x2 x3 j))) := by
  rw [val_main_v35_apply, val_main_v34_apply, val_main_v33_apply, val_main_v32_apply, v30_at, val_main_v31_apply,
    val_main_cst_2_apply]
  show Ideal.exp (_ - max (Ideal.ofBits .f32 0xFF800000#32) _) = _
  rw [ofBits_neg_inf_f32]

/-- The softmax weight of the one key is one when the score is real. -/
theorem weight_one (h0 : ∀ i, IsReal (x0 i)) (h1 : ∀ i, IsReal (x1 i)) (h2 : ∀ i, IsReal (x2 i)) (h3 : ∀ i, IsReal (x3 i))
    (j : S32768x8x1.Idx) : val_main_v38 (F := Ideal) x0 x1 x2 x3 j = 1 := by
  rw [val_main_v38_apply, val_main_v37_apply, val_main_v36_apply, Fin.sum_univ_one, idx_unit, val_main_cst_3_apply, v35_at]
  show Ideal.div _ (Ideal.ofBits .f32 0x00000000#32 + _) = 1
  rw [Ideal.ofBits_zero_f32]
  exact softmax_single _ (real_v29 x0 x1 x2 x3 h0 h1 h2 h3 j)

end Weight

/-- With real activations and a real packed projection, the context the reference computes is the value projection:
    the softmax over the one key is one. -/
theorem ctx_eq_value (x0 x1 : (⟨S32768x896, .f32⟩ : BufTy).Contents (Elt Ideal)) (x2 : (⟨S2688x896, .f32⟩ : BufTy).Contents (Elt Ideal)) (x3 : (⟨S2688, .f32⟩ : BufTy).Contents (Elt Ideal))
    (h0 : ∀ i, IsReal (x0 i)) (h1 : ∀ i, IsReal (x1 i)) (h2 : ∀ i, IsReal (x2 i)) (h3 : ∀ i, IsReal (x3 i)) :
    val_main_v41 (F := Ideal) x0 x1 x2 x3 = val_main_v20 (F := Ideal) x1 x2 x3 := by
  funext i
  rw [val_main_v41_apply, val_main_v40_apply, val_main_v39_apply, val_main_v23_apply, idx_roundtrip,
    weight_one x0 x1 x2 x3 h0 h1 h2 h3]
  show (1 : EReal) * _ = _
  rw [one_mul]

end Cert.ReferenceIdeal.Attention

end
-- ==== Proof.RefRow.lean ====
/-
  The reference's result at an index.

  The reference is read one operation at a time, from the value projection up to the result, each stage at row `r`
  and column `j` of its array:

    the value projection              v   = phi · Wvᵀ + bv        (rows 1792 … 2687 of the packed projection)
    the attention output              a   = v · Woᵀ + bo          (the context is the value projection, by hypothesis)
    the concatenation                 [h, a]                      (the hidden row on columns 0 … 895, `a` on 896 … 1791)
    the gate's first layer            z   = [h, a] · W1ᵀ + b1
    SiLU                              z · 1 / (1 + e^(−z))
    the gate's second layer           g   = SiLU(z) · W2ᵀ + b2
    the row mean and variance         μ = (0 + Σ g) / 896,  var = (0 + Σ (g − μ)²) / 896
    the result                        h + ((g − μ) · (var + ε)^(−1/2) · γ + β).

  Each matrix product is a finite sum over the contracted coordinate, each row reduction a finite sum from the zero
  word, and every broadcast reads its operand at the coordinates it keeps; the specification's row function is written
  in the same order, so each stage is the specification's term once the index of every operand is written by its
  coordinates.
-/
import proofs.«159725_j90941637526290_1_alg».proof.Proof.RefRead
import proofs.«159725_j90941637526290_1_alg».proof.Proof.GateSpec
import proofs.«159725_j90941637526290_1_alg».proof.Proof.LibKeepdims

noncomputable section

namespace Cert.ReferenceIdeal.RowValue

open Cert.ReferenceIdeal Cert.ReferenceIdeal.ReadP Cert.GateSpec
open Idealize.ShloMosaic Idealize.ShloMosaic.ValueIdx

section Stages

variable (x0 x1 : (⟨S32768x896, .f32⟩ : BufTy).Contents (Elt Ideal)) (x2 : (⟨S2688x896, .f32⟩ : BufTy).Contents (Elt Ideal)) (x3 : (⟨S2688, .f32⟩ : BufTy).Contents (Elt Ideal))
    (x4 : (⟨S896x896, .f32⟩ : BufTy).Contents (Elt Ideal)) (x5 : (⟨S896, .f32⟩ : BufTy).Contents (Elt Ideal)) (x6 : (⟨S896x1792, .f32⟩ : BufTy).Contents (Elt Ideal)) (x7 : (⟨S896, .f32⟩ : BufTy).Contents (Elt Ideal))
    (x8 : (⟨S896x896, .f32⟩ : BufTy).Contents (Elt Ideal)) (x9 x10 x11 : (⟨S896, .f32⟩ : BufTy).Contents (Elt Ideal))

/-- The value projection at row r, column j. -/
theorem v20_at (r : Fin 32768) (j : Fin 896) :
    val_main_v20 (F := Ideal) x1 x2 x3 (ix2 r j) = affine (rowOf x1 r) (wvOf x2) (bvOf x3) j := by
  rw [val_main_v20_apply, val_main_v16_apply, val_main_v19_apply, val_main_v18_apply, val_main_v17_apply]
  have e1 : ∀ k : Fin 896, lidx_main_v16 (ix2 r j) k = ix2 r k := fun k =>
    funext fun a => Fin.ext (by match a with | ⟨0, _⟩ => rfl | ⟨1, _⟩ => rfl)
  have e2 : ∀ k : Fin 896, idx_main_v14 (idx_main_v15 (ridx_main_v16 (ix2 r j) k))
      = ix2 (⟨1792 + j.val, by have := j.isLt; omega⟩ : Fin 2688) k := fun k =>
    funext fun a => Fin.ext (by match a with | ⟨0, _⟩ => rfl | ⟨1, _⟩ => rfl)
  have e3 : idx_main_v17 (idx_main_v18 (idx_main_v19 (ix2 r j)))
      = ix1 (⟨1792 + j.val, by have := j.isLt; omega⟩ : Fin 2688) :=
    funext fun a => Fin.ext (by match a with | ⟨0, _⟩ => rfl)
  simp only [val_main_v15_apply, val_main_v14_apply, e1, e2, e3, Ideal.addf_def]
  rfl

/-- The attention output at row r, column j: the output projection of the value projection (the context is the
    value projection, by hypothesis). -/
theorem v46_at (hctx : val_main_v41 (F := Ideal) x0 x1 x2 x3 = val_main_v20 (F := Ideal) x1 x2 x3)
    (r : Fin 32768) (j : Fin 896) :
    val_main_v46 (F := Ideal) x0 x1 x2 x3 x4 x5 (ix2 r j)
      = affine (affine (rowOf x1 r) (wvOf x2) (bvOf x3)) (trOf x4) (vecOf x5) j := by
  rw [val_main_v46_apply, val_main_v43_apply, val_main_v45_apply, val_main_v44_apply, hctx]
  have e1 : ∀ k : Fin 896, lidx_main_v43 (ix2 r j) k = ix2 r k := fun k =>
    funext fun a => Fin.ext (by match a with | ⟨0, _⟩ => rfl | ⟨1, _⟩ => rfl)
  have e2 : ∀ k : Fin 896, idx_main_v42 (ridx_main_v43 (ix2 r j) k) = ix2 j k := fun k =>
    funext fun a => Fin.ext (by match a with | ⟨0, _⟩ => rfl | ⟨1, _⟩ => rfl)
  have e3 : idx_main_v44 (idx_main_v45 (ix2 r j)) = ix1 j :=
    funext fun a => Fin.ext (by match a with | ⟨0, _⟩ => rfl)
  simp only [val_main_v42_apply, e1, e2, e3, v20_at, Ideal.addf_def]
  rfl

/-- The concatenation at row r, column k: the hidden row on the first 896 columns, the attention output after. -/
theorem v47_at (hctx : val_main_v41 (F := Ideal) x0 x1 x2 x3 = val_main_v20 (F := Ideal) x1 x2 x3)
    (r : Fin 32768) (k : Fin 1792) :
    val_main_v47 (F := Ideal) x0 x1 x2 x3 x4 x5 (ix2 r k)
      = cat (rowOf x0 r) (affine (affine (rowOf x1 r) (wvOf x2) (bvOf x3)) (trOf x4) (vecOf x5)) k := by
  unfold val_main_v47
  show _ = if hk : k.val < 896 then rowOf x0 r ⟨k.val, hk⟩
    else affine (affine (rowOf x1 r) (wvOf x2) (bvOf x3)) (trOf x4) (vecOf x5) ⟨k.val - 896, by have := k.isLt; omega⟩
  split
  · rename_i hk
    refine (concatenate_pair_apply_left (t := S32768x1792) (s₁ := S32768x896) (s₂ := S32768x896) _ _ _ _ (ix2 r k) rfl (ix2 r (⟨k.val, hk⟩ : Fin 896)) fun b => ?_).trans rfl
    match b with
    | ⟨0, _⟩ => rfl
    | ⟨1, _⟩ => rfl
  · rename_i hk
    have hk' : k.val - 896 < 896 := by have := k.isLt; omega
    refine (concatenate_pair_apply_right (t := S32768x1792) (s₁ := S32768x896) (s₂ := S32768x896) _ _ _ _ (ix2 r k) rfl rfl (ix2 r (⟨k.val - 896, hk'⟩ : Fin 896)) (fun b hb => ?_) ?_).trans ?_
    · match b with
      | ⟨0, _⟩ => rfl
      | ⟨1, _⟩ => exact (hb rfl).elim
    · show (k.val - 896) + 896 = k.val
      omega
    · exact v46_at x0 x1 x2 x3 x4 x5 hctx r _

/-- The gate's first layer at row r, column j. -/
theorem v52_at (hctx : val_main_v41 (F := Ideal) x0 x1 x2 x3 = val_main_v20 (F := Ideal) x1 x2 x3)
    (r : Fin 32768) (j : Fin 896) :
    val_main_v52 (F := Ideal) x0 x1 x2 x3 x4 x5 x6 x7 (ix2 r j)
      = affine (cat (rowOf x0 r) (affine (affine (rowOf x1 r) (wvOf x2) (bvOf x3)) (trOf x4) (vecOf x5)))
          (trOf x6) (vecOf x7) j := by
  rw [val_main_v52_apply, val_main_v49_apply, val_main_v51_apply, val_main_v50_apply]
  have e1 : ∀ k : Fin 1792, lidx_main_v49 (ix2 r j) k = ix2 r k := fun k =>
    funext fun a => Fin.ext (by match a with | ⟨0, _⟩ => rfl | ⟨1, _⟩ => rfl)
  have e2 : ∀ k : Fin 1792, idx_main_v48 (ridx_main_v49 (ix2 r j) k) = ix2 j k := fun k =>
    funext fun a => Fin.ext (by match a with | ⟨0, _⟩ => rfl | ⟨1, _⟩ => rfl)
  have e3 : idx_main_v50 (idx_main_v51 (ix2 r j)) = ix1 j :=
    funext fun a => Fin.ext (by match a with | ⟨0, _⟩ => rfl)
  simp only [val_main_v48_apply, e1, e2, e3, v47_at x0 x1 x2 x3 x4 x5 hctx, Ideal.addf_def]
  rfl

/-- SiLU of the first layer at row r, column j: z times 1 / (1 + e^(−z)). -/
theorem v53_at (hctx : val_main_v41 (F := Ideal) x0 x1 x2 x3 = val_main_v20 (F := Ideal) x1 x2 x3)
    (r : Fin 32768) (j : Fin 896) :
    val_main_v53 (F := Ideal) x0 x1 x2 x3 x4 x5 x6 x7 (ix2 r j)
      = silu (affine (cat (rowOf x0 r) (affine (affine (rowOf x1 r) (wvOf x2) (bvOf x3)) (trOf x4) (vecOf x5)))
          (trOf x6) (vecOf x7) j) := by
  rw [val_main_v53_apply, val_main_call0_v5_apply, val_main_call0_v4_apply, val_main_call0_cst_0_apply,
    val_main_call0_v3_apply, val_main_call0_v2_apply, val_main_call0_cst_apply, val_main_call0_v1_apply,
    val_main_call0_v0_apply, v52_at x0 x1 x2 x3 x4 x5 x6 x7 hctx]
  simp only [Ideal.mulf_def, Ideal.hostDivf_def, Ideal.addf_def, Ideal.hostUnary_exp_def, Ideal.hostNegf_def,
    Ideal.negf_def, Ideal.ofBits_def, Ideal.ofBits_one_f32]
  rfl

/-- The gate's second layer at row r, column j. -/
theorem v58_at (hctx : val_main_v41 (F := Ideal) x0 x1 x2 x3 = val_main_v20 (F := Ideal) x1 x2 x3)
    (r : Fin 32768) (j : Fin 896) :
    val_main_v58 (F := Ideal) x0 x1 x2 x3 x4 x5 x6 x7 x8 x9 (ix2 r j)
      = gate (rowOf x0 r) (rowOf x1 r) (wvOf x2) (bvOf x3) (trOf x4) (vecOf x5) (trOf x6) (vecOf x7) (trOf x8)
          (vecOf x9) j := by
  rw [val_main_v58_apply, val_main_v55_apply, val_main_v57_apply, val_main_v56_apply]
  have e1 : ∀ k : Fin 896, lidx_main_v55 (ix2 r j) k = ix2 r k := fun k =>
    funext fun a => Fin.ext (by match a with | ⟨0, _⟩ => rfl | ⟨1, _⟩ => rfl)
  have e2 : ∀ k : Fin 896, idx_main_v54 (ridx_main_v55 (ix2 r j) k) = ix2 j k := fun k =>
    funext fun a => Fin.ext (by match a with | ⟨0, _⟩ => rfl | ⟨1, _⟩ => rfl)
  have e3 : idx_main_v56 (idx_main_v57 (ix2 r j)) = ix1 j :=
    funext fun a => Fin.ext (by match a with | ⟨0, _⟩ => rfl)
  simp only [val_main_v54_apply, e1, e2, e3, v53_at x0 x1 x2 x3 x4 x5 x6 x7 hctx, Ideal.addf_def]
  rfl

/-- The row mean (kept as a column): the sum of the gate's row, from zero, over 896. -/
theorem v62_at (hctx : val_main_v41 (F := Ideal) x0 x1 x2 x3 = val_main_v20 (F := Ideal) x1 x2 x3)
    (r : Fin 32768) (u : Fin 1) :
    val_main_v62 (F := Ideal) x0 x1 x2 x3 x4 x5 x6 x7 x8 x9 (ix2 r u)
      = mean (gate (rowOf x0 r) (rowOf x1 r) (wvOf x2) (bvOf x3) (trOf x4) (vecOf x5) (trOf x6) (vecOf x7) (trOf x8)
          (vecOf x9)) := by
  rw [val_main_v62_apply, val_main_v60_apply, val_main_v59_apply, val_main_v61_apply, val_main_cst_5_apply,
    val_main_cst_4_apply]
  have e1 : ∀ k : Fin 896, idx_main_v59 (idx_main_v60 (ix2 r u)) k = ix2 r k := fun k =>
    funext fun a => Fin.ext (by match a with | ⟨0, _⟩ => rfl | ⟨1, _⟩ => rfl)
  simp only [e1, v58_at x0 x1 x2 x3 x4 x5 x6 x7 x8 x9 hctx, Ideal.hostDivf_def, Ideal.ofBits_def,
    Ideal.ofBits_zero_f32, zero_add]
  rfl

/-- The row variance (kept as a column): the sum of the squared deviations from the mean, from zero, over 896. -/
theorem v69_at (hctx : val_main_v41 (F := Ideal) x0 x1 x2 x3 = val_main_v20 (F := Ideal) x1 x2 x3)
    (r : Fin 32768) (u : Fin 1) :
    val_main_v69 (F := Ideal) x0 x1 x2 x3 x4 x5 x6 x7 x8 x9 (ix2 r u)
      = variance (gate (rowOf x0 r) (rowOf x1 r) (wvOf x2) (bvOf x3) (trOf x4) (vecOf x5) (trOf x6) (vecOf x7)
          (trOf x8) (vecOf x9)) := by
  rw [val_main_v69_apply, val_main_v67_apply, val_main_v66_apply, val_main_v68_apply, val_main_cst_7_apply,
    val_main_cst_6_apply]
  have e1 : ∀ k : Fin 896, idx_main_v66 (idx_main_v67 (ix2 r u)) k = ix2 r k := fun k =>
    funext fun a => Fin.ext (by match a with | ⟨0, _⟩ => rfl | ⟨1, _⟩ => rfl)
  have e2 : ∀ k : Fin 896, idx_main_v63 (ix2 r k) = ix2 r (0 : Fin 1) := fun k =>
    funext fun a => Fin.ext (by match a with | ⟨0, _⟩ => rfl | ⟨1, _⟩ => rfl)
  simp only [e1, val_main_v65_apply, val_main_v64_apply, val_main_v63_apply, e2,
    v62_at x0 x1 x2 x3 x4 x5 x6 x7 x8 x9 hctx, v58_at x0 x1 x2 x3 x4 x5 x6 x7 x8 x9 hctx, Ideal.hostDivf_def,
    Ideal.mulf_def, Ideal.subf_def, Ideal.ofBits_def, Ideal.ofBits_zero_f32, zero_add]
  rfl

end Stages

/-- Where the context is the value projection, the reference's result is `G` of its arguments. -/
theorem ref_eq_G (x0 x1 : (⟨S32768x896, .f32⟩ : BufTy).Contents (Elt Ideal)) (x2 : (⟨S2688x896, .f32⟩ : BufTy).Contents (Elt Ideal)) (x3 : (⟨S2688, .f32⟩ : BufTy).Contents (Elt Ideal))
    (x4 : (⟨S896x896, .f32⟩ : BufTy).Contents (Elt Ideal)) (x5 : (⟨S896, .f32⟩ : BufTy).Contents (Elt Ideal)) (x6 : (⟨S896x1792, .f32⟩ : BufTy).Contents (Elt Ideal)) (x7 : (⟨S896, .f32⟩ : BufTy).Contents (Elt Ideal))
    (x8 : (⟨S896x896, .f32⟩ : BufTy).Contents (Elt Ideal)) (x9 x10 x11 : (⟨S896, .f32⟩ : BufTy).Contents (Elt Ideal))
    (hctx : val_main_v41 (F := Ideal) x0 x1 x2 x3 = val_main_v20 (F := Ideal) x1 x2 x3) :
    val_main_v83 (F := Ideal) x0 x1 x2 x3 x4 x5 x6 x7 x8 x9 x10 x11 = G x0 x1 x2 x3 x4 x5 x6 x7 x8 x9 x10 x11 := by
  -- Index by index, at row r and column q. The normalised row keeps the reference's association,
  -- ((g − μ) · (var + ε)^(−1/2)) · γ + β, added to the hidden row, which is how the specification writes it.
  funext i
  obtain ⟨r, q, rfl⟩ : ∃ (r : Fin 32768) (q : Fin 896), i = ix2 r q := ⟨i 0, i 1, eq_ix2 i⟩
  rw [G_ix2, val_main_v83_apply, val_main_v82_apply, val_main_v79_apply, val_main_v76_apply, val_main_v71_apply,
    val_main_v70_apply, val_main_v75_apply, val_main_v74_apply, val_main_v73_apply, val_main_v72_apply,
    val_main_cst_8_apply, val_main_v78_apply, val_main_v77_apply, val_main_v81_apply, val_main_v80_apply]
  -- the mean and the inverse deviation are read at the row's one kept column; the scale and shift at column q
  have e70 : idx_main_v70 (ix2 r q) = ix2 r (0 : Fin 1) :=
    funext fun a => Fin.ext (by match a with | ⟨0, _⟩ => rfl | ⟨1, _⟩ => rfl)
  have e75 : idx_main_v75 (ix2 r q) = ix2 r (0 : Fin 1) :=
    funext fun a => Fin.ext (by match a with | ⟨0, _⟩ => rfl | ⟨1, _⟩ => rfl)
  have e78 : idx_main_v77 (idx_main_v78 (ix2 r q)) = ix1 q :=
    funext fun a => Fin.ext (by match a with | ⟨0, _⟩ => rfl)
  have e81 : idx_main_v80 (idx_main_v81 (ix2 r q)) = ix1 q :=
    funext fun a => Fin.ext (by match a with | ⟨0, _⟩ => rfl)
  simp only [e70, e75, e78, e81, v62_at x0 x1 x2 x3 x4 x5 x6 x7 x8 x9 hctx, v69_at x0 x1 x2 x3 x4 x5 x6 x7 x8 x9 hctx,
    v58_at x0 x1 x2 x3 x4 x5 x6 x7 x8 x9 hctx, Ideal.addf_def, Ideal.mulf_def, Ideal.subf_def,
    Ideal.hostUnary_rsqrt_def, Ideal.ofBits_def]
  rfl

end Cert.ReferenceIdeal.RowValue

end
-- ==== Proof.Finite.lean ====
/-
  From the precondition to real entries.

  The precondition is a conjunction of twelve statements, one per argument array: every entry of the array has
  absolute value below plus infinity.  Over the extended reals the absolute value of x is the larger of x and -x,
  and that is below plus infinity exactly when x is neither infinity, that is, when x is a real number.  We prove
  this once for an array of any shape and read it off the conjuncts of the first four arguments.
-/
import proofs.«159725_j90941637526290_1_alg».proof.Defs
import proofs.«159725_j90941637526290_1_alg».proof.Proof.Gen.Pre_finite_inputs
import proofs.«159725_j90941637526290_1_alg».proof.Proof.GateSpec
import Idealize.ShloMosaic.Lib.ReduceAll
import Idealize.ShloMosaic.Lib.IdealHost

noncomputable section

namespace Cert.Finite

open Cert.GateSpec
open Idealize.ShloMosaic Idealize.ShloMosaic.ValueIdx

/-- The word 0x7F800000 is plus infinity. -/
theorem ofBits_pos_inf_f32 : Ideal.ofBits .f32 0x7F800000#32 = (⊤ : EReal) := by
  simp [Ideal.ofBits, Ideal.ieee]

/-- An extended real whose absolute value, the larger of x and -x, lies below plus infinity is a real number:
    at minus infinity the negation is plus infinity, at plus infinity x itself is, and neither lies below it. -/
theorem isReal_of_abs_lt_top (x : EReal) (h : max x (-x) < ⊤) : IsReal x := by
  induction x using EReal.rec with
  | bot => simp at h
  | top => simp at h
  | coe r => exact ⟨r, rfl⟩

/-- A one-bit word made from a truth value is one exactly when the truth value is true. -/
theorem ofBool_eq_one {b : Bool} : BitVec.ofBool b = 1#1 ↔ b = true := by cases b <;> decide

/-- The shape of a scalar has exactly one index. -/
instance subsingleton_scalar_idx : Subsingleton (⟨0, ![]⟩ : Shape).Idx :=
  ⟨fun a b => funext fun d => d.elim0⟩

/-- For an array x of any shape: if the conjunction over all entries of "the absolute value of the entry is below
    plus infinity" is true, then every entry of x is a real number.  The conjunction being true gives the comparison
    at each index; there the bound reads plus infinity, the comparison is the strict order of the extended reals,
    and the previous lemma applies. -/
theorem real_of_all_finite {s : Shape} {axes : List (Fin s.rank)} (x : FVec Ideal s .f32)
    (hb : (⟨0, ![]⟩ : Shape).BroadcastsInDim s ![]) (hred : s.ReducesTo axes ⟨0, ![]⟩)
    (hu : 0 < (⟨0, ![]⟩ : Shape).numel) (init : IVec ⟨0, ![]⟩ 1)
    (e : Host.reduce IntOp.andi
          (cmpf .olt (Host.absf x) (broadcastInDim s ![] hb (constant (F := Ideal) ⟨0, ![]⟩ .f32 0x7F800000#32)))
          init hred hu ix0 = 1#1)
    (i : s.Idx) : IsReal (x i) := by
  have e1 := Host.reduce_andi_all _ init hred hu ix0 e i
  have hbc : broadcastInDim s ![] hb (constant (F := Ideal) ⟨0, ![]⟩ .f32 0x7F800000#32) i
      = (⊤ : EReal) :=
    (broadcastInDim_scalar_apply hb _ i).trans ofBits_pos_inf_f32
  have e2 : Ideal.cmp .olt (max (x i) (-(x i)))
      (broadcastInDim s ![] hb (constant (F := Ideal) ⟨0, ![]⟩ .f32 0x7F800000#32) i) = 1#1 := e1
  rw [hbc] at e2
  have e3 : BitVec.ofBool (decide (max (x i) (-(x i)) < (⊤ : EReal))) = 1#1 := e2
  exact isReal_of_abs_lt_top _ (of_decide_eq_true (ofBool_eq_one.1 e3))

/-- Under the precondition the two activations, the packed projection and its bias have real entries. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i)) := by
  -- the precondition on this device, at the single index of its scalar result
  have e := congrFun (h c) ValueIdx.ix0
  dsimp only [Cert.Pre_finite_inputs.fn, Cert.Pre_finite_inputs.fn_part1, Cert.Pre_finite_inputs.fn_part2,
    Cert.Pre_finite_inputs.fn_part3] at e
  -- the conjunction nests to the left: drop the conjuncts of arguments 11 down to 4
  replace e := (IntOp.andi_eq_one.1 e).1
  replace e := (IntOp.andi_eq_one.1 e).1
  replace e := (IntOp.andi_eq_one.1 e).1
  replace e := (IntOp.andi_eq_one.1 e).1
  replace e := (IntOp.andi_eq_one.1 e).1
  replace e := (IntOp.andi_eq_one.1 e).1
  replace e := (IntOp.andi_eq_one.1 e).1
  replace e := (IntOp.andi_eq_one.1 e).1
  -- and keep those of arguments 3, 2, 1 and 0
  obtain ⟨e, e3⟩ := IntOp.andi_eq_one.1 e
  obtain ⟨e, e2⟩ := IntOp.andi_eq_one.1 e
  obtain ⟨e0, e1⟩ := IntOp.andi_eq_one.1 e
  exact ⟨real_of_all_finite _ _ _ _ _ e0, real_of_all_finite _ _ _ _ _ e1,
    real_of_all_finite _ _ _ _ _ e2, real_of_all_finite _ _ _ _ _ e3⟩

end Cert.Finite

end
-- ==== Proof.lean ====
/-
  A fused transformer block against its plain reference, over the extended reals.

  The kernel tiles the 32768 rows into 64 blocks of 512 and, for each block, computes the value projection, the
  attention output, the gate (two layers with a SiLU between them, the first on the concatenation of the hidden
  state and the attention output), a layer normalisation and the residual.  Every step acts on rows separately, so
  row `r` of the result is one function `GateSpec.rowOut` of row `r` of the two activations and of the weights, and
  the result array is `GateSpec.G` of the arguments: block `t` holds rows `512·t … 512·t + 511` of it, and the 64
  blocks cover the array (`KernelIdeal.ArrayValue.run`).

  The reference also computes queries, keys, scores and a softmax, with ONE key per query.  A softmax over one
  score is `exp (s − s) / exp (s − s)`, which is one when the score is a real number; the scores are finite sums
  of products of input entries divided by `√112`, so under the precondition (every input entry finite) they are
  real, the attention weight is one and the context is the value projection
  (`ReferenceIdeal.Attention.ctx_eq_value`, the only use of the precondition).  The rest of the reference is the
  kernel's arithmetic on whole arrays: a bf16 narrowing is the identity on extended reals, the matrix unit's
  product into a zero accumulator is the host's contraction, a lane sum is the host's sum from zero, the
  logistic function is `1 / (1 + e^(−z))` on both sides, and the constants 896 and ε are the same words
  (`ReferenceIdeal.RowValue.ref_eq_G`).

  The two kernels' frames are the generated ones; the reference's frame is its run with the result dropped, and
  that run is read back in five stretches (`ReferenceIdeal.RunStages.run`).  The ideal pass rewrote nothing, so
  `preserves` is trivial.
-/
import proofs.«159725_j90941637526290_1_alg».proof.Defs
import proofs.«159725_j90941637526290_1_alg».proof.Proof.Gen.Kernel
import proofs.«159725_j90941637526290_1_alg».proof.Proof.Gen.Kernel.Frame
import proofs.«159725_j90941637526290_1_alg».proof.Proof.Gen.KernelIdeal
import proofs.«159725_j90941637526290_1_alg».proof.Proof.Gen.KernelIdeal.Frame
import proofs.«159725_j90941637526290_1_alg».proof.Proof.Gen.KernelIdeal.Value
import proofs.«159725_j90941637526290_1_alg».proof.Proof.Gen.ReferenceIdeal
import proofs.«159725_j90941637526290_1_alg».proof.Proof.Gen.Pre_finite_inputs
import proofs.«159725_j90941637526290_1_alg».proof.Proof.RefRun
import proofs.«159725_j90941637526290_1_alg».proof.Proof.KernelArray
import proofs.«159725_j90941637526290_1_alg».proof.Proof.RefAttention
import proofs.«159725_j90941637526290_1_alg».proof.Proof.RefRow
import proofs.«159725_j90941637526290_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunStages.run (F := Ideal) m ρ)

/-- Both idealized programs end with `GateSpec.G` of the arguments in their result array. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RunStages.run (F := Ideal) m' ρ')
  obtain ⟨h0, h1, h2, h3⟩ := Cert.Finite.real_args m hpre c
  obtain ⟨e0, e1, e2, e3, e4, e5, e6, e7, e8, e9, e10, e11⟩ := hagree c
  rw [e0, e1, e2, e3, e4, e5, e6, e7, e8, e9, e10, e11]
  exact Cert.ReferenceIdeal.RowValue.ref_eq_G _ _ _ _ _ _ _ _ _ _ _ _
    (Cert.ReferenceIdeal.Attention.ctx_eq_value _ _ _ _ h0 h1 h2 h3)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
